-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x360x360 : Shape := ⟨4, ![2, 256, 360, 360]⟩
abbrev S3x1024 : Shape := ⟨2, ![3, 1024]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S2x256x360x360 : S_.BroadcastsInDim S2x256x360x360 (![] : Fin 0 → Fin S2x256x360x360.rank)
  reducesTo_S2x256x360x360_S_d0_1_2_3 : S2x256x360x360.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S32x1 .f32) (main_arg10 : FVec F S1 .f32) (main_v33 : IVec S_ 1) : IVec S_ 1 :=
  let main_v34 : FVec F S32x1 .f32 := Host.absf main_arg9
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x32 .f32) (main_arg8 : FVec F S32 .f32) (main_arg9 : FVec F S32x1 .f32) (main_arg10 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S2x256x360x360 .f32) (main_arg1 : IVec S3x1024 32) (main_arg2 : IVec S3x1024 32) (main_arg3 : FVec F S256x256 .f32) (main_arg4 : FVec F S256 .f32) (main_arg5 : FVec F S256x128 .f32) (main_arg6 : FVec F S128 .f32) (main_arg7 : FVec F S128x32 .f32) (main_arg8 : FVec F S32 .f32) (main_arg9 : FVec F S32x1 .f32) (main_arg10 : FVec F S1 .f32) : IVec S_ 1 :=
  let main_v0 : FVec F S2x256x360x360 .f32 := Host.absf main_arg0
  let main_cst : FVec F S_ .f32 := constant S_ .f32 0x7F800000#32
  let main_v1 : FVec F S2x256x360x360 .f32 := broadcastInDim S2x256x360x360 ![] bcast_S_S2x256x360x360 main_cst
  let main_v2 : IVec S2x256x360x360 1 := cmpf .olt main_v0 main_v1
  let main_c : IVec S_ 1 := constantI S_ 1 1#1
  let main_v3 : IVec S_ 1 := (fun x v => Host.reduce IntOp.andi x v reducesTo_S2x256x360x360_S_d0_1_2_3 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_v13 main_v16
-- ==== Kernel.lean ====
abbrev S2x256x360x360 : Shape := ⟨4, ![2, 256, 360, 360]⟩
abbrev S3x1024 : Shape := ⟨2, ![3, 1024]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S2x360x360x256 : Shape := ⟨4, ![2, 360, 360, 256]⟩
abbrev S1x1024 : Shape := ⟨2, ![1, 1024]⟩
abbrev S1024 : Shape := ⟨1, ![1024]⟩
abbrev S_ : Shape := ⟨0, ![]⟩
abbrev S1024x1 : Shape := ⟨2, ![1024, 1]⟩
abbrev S1024x3 : Shape := ⟨2, ![1024, 3]⟩
abbrev S1024x256 : Shape := ⟨2, ![1024, 256]⟩
abbrev S1x1024x256 : Shape := ⟨3, ![1, 1024, 256]⟩
abbrev S2x1024x256 : Shape := ⟨3, ![2, 1024, 256]⟩
abbrev S2x1024x128 : Shape := ⟨3, ![2, 1024, 128]⟩
abbrev S1x1024x128 : Shape := ⟨3, ![1, 1024, 128]⟩
abbrev S1x256 : Shape := ⟨2, ![1, 256]⟩
abbrev S1024x128 : Shape := ⟨2, ![1024, 128]⟩
abbrev S1x128 : Shape := ⟨2, ![1, 128]⟩
abbrev S1024x1024 : Shape := ⟨2, ![1024, 1024]⟩
abbrev S128x128 : Shape := ⟨2, ![128, 128]⟩
abbrev S256x1x128 : Shape := ⟨3, ![256, 1, 128]⟩
abbrev S1x128x128 : Shape := ⟨3, ![1, 128, 128]⟩
abbrev S256x128x128 : Shape := ⟨3, ![256, 128, 128]⟩
abbrev S32768x128 : Shape := ⟨2, ![32768, 128]⟩
abbrev S32768x32 : Shape := ⟨2, ![32768, 32]⟩
abbrev S1x32 : Shape := ⟨2, ![1, 32]⟩
abbrev S256x128x32 : Shape := ⟨3, ![256, 128, 32]⟩
abbrev S1x1x32 : Shape := ⟨3, ![1, 1, 32]⟩
abbrev S1x1 : Shape := ⟨2, ![1, 1]⟩

abbrev nBuf : Space → Nat
  | .hbm => 86
  | .vmem => 18
  | .smem => 0
  | _ => 0

abbrev bufTy : (tb : Table) → Fin (tcTables nBuf tb) → BufTy
  | .hbm, ⟨0, _⟩ => ⟨S2x256x360x360, .f32⟩
  | .hbm, ⟨1, _⟩ => ⟨S3x1024, .i32⟩
  | .hbm, ⟨2, _⟩ => ⟨S3x1024, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S2x360x360x256, .f32⟩
  | .hbm, ⟨12, _⟩ => ⟨S1x1024, .i32⟩
  | .hbm, ⟨13, _⟩ => ⟨S1024, .i32⟩
  | .hbm, ⟨14, _⟩ => ⟨S1x1024, .i32⟩
  | .hbm, ⟨15, _⟩ => ⟨S1024, .i32⟩
  | .hbm, ⟨16, _⟩ => ⟨S1x1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x1, .i32⟩
  | .hbm, ⟨41, _⟩ => ⟨S1024x1, .i32⟩
  | .hbm, ⟨42, _⟩ => ⟨S1024x3, .i32⟩
  | .hbm, ⟨43, _⟩ => ⟨S1024x256, .f32⟩
  | .hbm, ⟨44, _⟩ => ⟨S1x1024, .i32⟩
  | .hbm, ⟨45, _⟩ => ⟨S1024, .i32⟩
  | .hbm, ⟨46, _⟩ => ⟨S1x1024, .i32⟩
  | .hbm, ⟨47, _⟩ => ⟨S1024, .i32⟩
  | .hbm, ⟨48, _⟩ => ⟨S1x1024, .i32⟩
  | .hbm, ⟨49, _⟩ => ⟨S1024, .i32⟩
  | .hbm, ⟨50, _⟩ => ⟨S_, .i32⟩
  | .hbm, ⟨51, _⟩ => ⟨S1024, .i32⟩
  | .hbm, ⟨52, _⟩ => ⟨S1024, .i1⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1024, .i32⟩
  | .hbm, ⟨64, _⟩ => ⟨S_, .i32⟩
  | .hbm, ⟨65, _⟩ => ⟨S1024, .i32⟩
  | .hbm, ⟨66, _⟩ => ⟨S1024, .i1⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S1024, .i32⟩
  | .hbm, ⟨71, _⟩ => ⟨S1024x1, .i32⟩
  | .hbm, ⟨72, _⟩ => ⟨S1024x1, .i32⟩
  | .hbm, ⟨73, _⟩ => ⟨S1024x1, .i32⟩
  | .hbm, ⟨74, _⟩ => ⟨S1024x3, .i32⟩
  | .hbm, ⟨75, _⟩ => ⟨S1024x256, .f32⟩
  | .hbm, ⟨76, _⟩ => ⟨S1x1024x256, .f32⟩
  | .hbm, ⟨77, _⟩ => ⟨S1x1024x256, .f32⟩
  | .hbm, ⟨78, _⟩ => ⟨S2x1024x256, .f32⟩
  | .hbm, ⟨79, _⟩ => ⟨S2x1024x128, .bf16⟩
  | .hbm, ⟨80, _⟩ => ⟨S1x1024x128, .bf16⟩
  | .hbm, ⟨81, _⟩ => ⟨S1024x128, .bf16⟩
  | .hbm, ⟨82, _⟩ => ⟨S1x1024x128, .bf16⟩
  | .hbm, ⟨83, _⟩ => ⟨S1024x128, .bf16⟩
  | .hbm, ⟨84, _⟩ => ⟨S32, .f32⟩
  | .hbm, ⟨85, _⟩ => ⟨S1024x1024, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S1x1024x128, .bf16⟩
  | .local _ .vmem, ⟨7, _⟩ => ⟨S1x1024x128, .bf16⟩
  | .local _ .vmem, ⟨8, _⟩ => ⟨S256x128, .bf16⟩
  | .local _ .vmem, ⟨9, _⟩ => ⟨S256x128, .bf16⟩
  | .local _ .vmem, ⟨10, _⟩ => ⟨S128x128, .bf16⟩
  | .local _ .vmem, ⟨11, _⟩ => ⟨S128x128, .bf16⟩
  | .local _ .vmem, ⟨12, _⟩ => ⟨S128x32, .f32⟩
  | .local _ .vmem, ⟨13, _⟩ => ⟨S32, .f32⟩
  | .local _ .vmem, ⟨14, _⟩ => ⟨S32, .f32⟩
  | .local _ .vmem, ⟨15, _⟩ => ⟨S1, .f32⟩
  | .local _ .vmem, ⟨16, _⟩ => ⟨S256x128, .f32⟩
  | .local _ .vmem, ⟨17, _⟩ => ⟨S256x128, .f32⟩
  | _, _ => ⟨S2x256x360x360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  transposes_S2x256x360x360_S2x360x360x256_0_2_3_1 : S2x256x360x360.Transposes [0, 2, 3, 1] S2x360x360x256
  slices_S3x1024_S1x1024_0_0 : S3x1024.Slices ![0, 0] S1x1024
  shapeCasts_S1x1024_S1024 : S1x1024.ShapeCasts S1024
  slices_S3x1024_S1x1024_1_0 : S3x1024.Slices ![1, 0] S1x1024
  slices_S3x1024_S1x1024_2_0 : S3x1024.Slices ![2, 0] S1x1024
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x1_S1024x3_d1 : Shape.Concatenates [S1024x1, S1024x1, S1024x1] S1024x3 1
  bcast_S1024x256_S1x1024x256_1_2 : S1024x256.BroadcastsInDim S1x1024x256 (![1, 2] : Fin 2 → Fin S1x1024x256.rank)
  concatenates_S1x1024x256_S1x1024x256_S2x1024x256_d0 : Shape.Concatenates [S1x1024x256, S1x1024x256] S2x1024x256 0
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  slices_S2x1024x128_S1x1024x128_0_0_0 : S2x1024x128.Slices ![0, 0, 0] S1x1024x128
  slices_S2x1024x128_S1x1024x128_1_0_0 : S2x1024x128.Slices ![1, 0, 0] S1x1024x128
  shapeCasts_S32x1_S32 : S32x1.ShapeCasts S32
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S256x128_S256x1x128 : S256x128.ShapeCasts S256x1x128
  shapeCasts_S128x128_S1x128x128 : S128x128.ShapeCasts S1x128x128
  broadcasts_S256x1x128_S256x128x128 : S256x1x128.Broadcasts S256x128x128
  broadcasts_S1x128x128_S256x128x128 : S1x128x128.Broadcasts S256x128x128
  shapeCasts_S256x128x128_S32768x128 : S256x128x128.ShapeCasts S32768x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S32768x32 : S1x32.Broadcasts S32768x32
  shapeCasts_S32768x32_S256x128x32 : S32768x32.ShapeCasts S256x128x32
  shapeCasts_S32_S32 : S32.ShapeCasts S32
  shapeCasts_S32_S1x1x32 : S32.ShapeCasts S1x1x32
  broadcasts_S1x1x32_S256x128x32 : S1x1x32.Broadcasts S256x128x32
  reduces_S256x128x32_S256x128 : S256x128x32.Reduces [2] S256x128
  inb_S1_S1_0 : ∀ a, (![0] : Fin 1 → Nat) a + S1.size a ≤ S1.size a
  h_S1 : 0 < S1.numel
  shapeCasts_S1_S1x1 : S1.ShapeCasts S1x1
  broadcasts_S1x1_S256x128 : S1x1.Broadcasts S256x128
  gather_S2x360x360x256_S1024x3_S1024x256_1_012_n_n_012_1_111256_wf : GatherDims.WF S2x360x360x256 S1024x3 S1024x256 [1] [0, 1, 2] [] [0, 1, 2] [] 1 ![1, 1, 1, 256]
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  dot_S32768x128_S128x32_S32768x32_1_0_0_1_n_n_wf : DotDims.WF S32768x128 S128x32 S32768x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S2x1024x256.size a
  hwx0_0 : ∀ i : grid0.Coords, EltTy.bits .f32 = 32 ∨ (Rect.block (s := S2x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S2x1024x128.size a
  hwx0_5 : ∀ i : grid0.Coords, EltTy.bits .bf16 = 32 ∨ (Rect.block (s := S2x1024x128) S1x1024x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S1024x128.size a
  hwx1_0 : ∀ i : grid1.Coords, EltTy.bits .bf16 = 32 ∨ (Rect.block (s := S1024x128) S256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S1024x128.size a
  hwx1_1 : ∀ i : grid1.Coords, EltTy.bits .bf16 = 32 ∨ (Rect.block (s := S1024x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1.size a ≤ S1.size a
  hwx1_5 : ∀ i : grid1.Coords, EltTy.bits .f32 = 32 ∨ (Rect.block (s := S1) S1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S1024x1024.size a
  hwx1_6 : ∀ i : grid1.Coords, EltTy.bits .f32 = 32 ∨ (Rect.block (s := S1024x1024) S256x128.size (cc1_transform_6 i) (hinb1_6 i)).WholeWords (EltTy.packing .f32)

variable [Facts₀]

def gather_S2x360x360x256_S1024x3_S1024x256_1_012_n_n_012_1_111256 : GatherDims S2x360x360x256 S1024x3 S1024x256 where
  offsetDims := [1]
  collapsedSliceDims := [0, 1, 2]
  operandBatchingDims := []
  startIndicesBatchingDims := []
  startIndexMap := [0, 1, 2]
  indexVectorDim := 1
  sliceSizes := ![1, 1, 1, 256]
  wf := gather_S2x360x360x256_S1024x3_S1024x256_1_012_n_n_012_1_111256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S32768x128_S128x32_S32768x32_1_0_0_1_n_n : DotDims S32768x128 S128x32 S32768x32 where
  lhsContracting := [1]
  rhsContracting := [0]
  lhsNonContracting := [0]
  rhsNonContracting := [1]
  lhsBatch := []
  rhsBatch := []
  wf := dot_S32768x128_S128x32_S32768x32_1_0_0_1_n_n_wf

abbrev win0_0 : Pipeline.Window sig grid0 :=
  Pipeline.Window.ofSpec (Memref.whole main_v55) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S1x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v58) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v62) S256x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x256x360x360 : Shape := ⟨4, ![2, 256, 360, 360]⟩
abbrev S3x1024 : Shape := ⟨2, ![3, 1024]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S2x360x360x256 : Shape := ⟨4, ![2, 360, 360, 256]⟩
abbrev S1x1024 : Shape := ⟨2, ![1, 1024]⟩
abbrev S1024 : Shape := ⟨1, ![1024]⟩
abbrev S_ : Shape := ⟨0, ![]⟩
abbrev S1024x1 : Shape := ⟨2, ![1024, 1]⟩
abbrev S1024x3 : Shape := ⟨2, ![1024, 3]⟩
abbrev S1024x256 : Shape := ⟨2, ![1024, 256]⟩
abbrev S1x256 : Shape := ⟨2, ![1, 256]⟩
abbrev S1024x128 : Shape := ⟨2, ![1024, 128]⟩
abbrev S1x128 : Shape := ⟨2, ![1, 128]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1024x1024x32 : Shape := ⟨3, ![1024, 1024, 32]⟩
abbrev S1x1x32 : Shape := ⟨3, ![1, 1, 32]⟩
abbrev S1024x1024x1 : Shape := ⟨3, ![1024, 1024, 1]⟩
abbrev S1x1x1 : Shape := ⟨3, ![1, 1, 1]⟩
abbrev S1024x1024 : Shape := ⟨2, ![1024, 1024]⟩

abbrev nBuf : Space → Nat
  | .hbm => 121
  | .vmem => 0
  | .smem => 0
  | _ => 0

abbrev bufTy : (tb : Table) → Fin (tcTables nBuf tb) → BufTy
  | .hbm, ⟨0, _⟩ => ⟨S2x256x360x360, .f32⟩
  | .hbm, ⟨1, _⟩ => ⟨S3x1024, .i32⟩
  | .hbm, ⟨2, _⟩ => ⟨S3x1024, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S2x360x360x256, .f32⟩
  | .hbm, ⟨12, _⟩ => ⟨S1x1024, .i32⟩
  | .hbm, ⟨13, _⟩ => ⟨S1024, .i32⟩
  | .hbm, ⟨14, _⟩ => ⟨S1x1024, .i32⟩
  | .hbm, ⟨15, _⟩ => ⟨S1024, .i32⟩
  | .hbm, ⟨16, _⟩ => ⟨S1x1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x1, .i32⟩
  | .hbm, ⟨41, _⟩ => ⟨S1024x1, .i32⟩
  | .hbm, ⟨42, _⟩ => ⟨S1024x3, .i32⟩
  | .hbm, ⟨43, _⟩ => ⟨S1024x256, .f32⟩
  | .hbm, ⟨44, _⟩ => ⟨S1024x256, .f32⟩
  | .hbm, ⟨45, _⟩ => ⟨S1x256, .f32⟩
  | .hbm, ⟨46, _⟩ => ⟨S1024x256, .f32⟩
  | .hbm, ⟨47, _⟩ => ⟨S1024x256, .f32⟩
  | .hbm, ⟨48, _⟩ => ⟨S_, .f32⟩
  | .hbm, ⟨49, _⟩ => ⟨S1024x256, .f32⟩
  | .hbm, ⟨50, _⟩ => ⟨S1024x256, .f32⟩
  | .hbm, ⟨51, _⟩ => ⟨S1024x128, .f32⟩
  | .hbm, ⟨52, _⟩ => ⟨S1x128, .f32⟩
  | .hbm, ⟨53, _⟩ => ⟨S1024x128, .f32⟩
  | .hbm, ⟨54, _⟩ => ⟨S1024x128, .f32⟩
  | .hbm, ⟨55, _⟩ => ⟨S_, .f32⟩
  | .hbm, ⟨56, _⟩ => ⟨S1024x128, .f32⟩
  | .hbm, ⟨57, _⟩ => ⟨S1024x128, .f32⟩
  | .hbm, ⟨58, _⟩ => ⟨S1x1024, .i32⟩
  | .hbm, ⟨59, _⟩ => ⟨S1024, .i32⟩
  | .hbm, ⟨60, _⟩ => ⟨S1x1024, .i32⟩
  | .hbm, ⟨61, _⟩ => ⟨S1024, .i32⟩
  | .hbm, ⟨62, _⟩ => ⟨S1x1024, .i32⟩
  | .hbm, ⟨63, _⟩ => ⟨S1024, .i32⟩
  | .hbm, ⟨64, _⟩ => ⟨S_, .i32⟩
  | .hbm, ⟨65, _⟩ => ⟨S1024, .i32⟩
  | .hbm, ⟨66, _⟩ => ⟨S1024, .i1⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S1024, .i32⟩
  | .hbm, ⟨71, _⟩ => ⟨S_, .i32⟩
  | .hbm, ⟨72, _⟩ => ⟨S1024, .i32⟩
  | .hbm, ⟨73, _⟩ => ⟨S1024, .i1⟩
  | .hbm, ⟨74, _⟩ => ⟨S_, .i32⟩
  | .hbm, ⟨75, _⟩ => ⟨S1024, .i32⟩
  | .hbm, ⟨76, _⟩ => ⟨S1024, .i32⟩
  | .hbm, ⟨77, _⟩ => ⟨S1024, .i32⟩
  | .hbm, ⟨78, _⟩ => ⟨S_, .i32⟩
  | .hbm, ⟨79, _⟩ => ⟨S1024, .i32⟩
  | .hbm, ⟨80, _⟩ => ⟨S1024, .i1⟩
  | .hbm, ⟨81, _⟩ => ⟨S_, .i32⟩
  | .hbm, ⟨82, _⟩ => ⟨S1024, .i32⟩
  | .hbm, ⟨83, _⟩ => ⟨S1024, .i32⟩
  | .hbm, ⟨84, _⟩ => ⟨S1024, .i32⟩
  | .hbm, ⟨85, _⟩ => ⟨S1024x1, .i32⟩
  | .hbm, ⟨86, _⟩ => ⟨S1024x1, .i32⟩
  | .hbm, ⟨87, _⟩ => ⟨S1024x1, .i32⟩
  | .hbm, ⟨88, _⟩ => ⟨S1024x3, .i32⟩
  | .hbm, ⟨89, _⟩ => ⟨S1024x256, .f32⟩
  | .hbm, ⟨90, _⟩ => ⟨S1024x256, .f32⟩
  | .hbm, ⟨91, _⟩ => ⟨S1x256, .f32⟩
  | .hbm, ⟨92, _⟩ => ⟨S1024x256, .f32⟩
  | .hbm, ⟨93, _⟩ => ⟨S1024x256, .f32⟩
  | .hbm, ⟨94, _⟩ => ⟨S_, .f32⟩
  | .hbm, ⟨95, _⟩ => ⟨S1024x256, .f32⟩
  | .hbm, ⟨96, _⟩ => ⟨S1024x256, .f32⟩
  | .hbm, ⟨97, _⟩ => ⟨S1024x128, .f32⟩
  | .hbm, ⟨98, _⟩ => ⟨S1x128, .f32⟩
  | .hbm, ⟨99, _⟩ => ⟨S1024x128, .f32⟩
  | .hbm, ⟨100, _⟩ => ⟨S1024x128, .f32⟩
  | .hbm, ⟨101, _⟩ => ⟨S_, .f32⟩
  | .hbm, ⟨102, _⟩ => ⟨S1024x128, .f32⟩
  | .hbm, ⟨103, _⟩ => ⟨S1024x128, .f32⟩
  | .hbm, ⟨104, _⟩ => ⟨S1024x1x128, .f32⟩
  | .hbm, ⟨105, _⟩ => ⟨S1x1024x128, .f32⟩
  | .hbm, ⟨106, _⟩ => ⟨S1024x1024x128, .f32⟩
  | .hbm, ⟨107, _⟩ => ⟨S1024x1024x128, .f32⟩
  | .hbm, ⟨108, _⟩ => ⟨S1024x1024x128, .f32⟩
  | .hbm, ⟨109, _⟩ => ⟨S1024x1024x32, .f32⟩
  | .hbm, ⟨110, _⟩ => ⟨S1x1x32, .f32⟩
  | .hbm, ⟨111, _⟩ => ⟨S1024x1024x32, .f32⟩
  | .hbm, ⟨112, _⟩ => ⟨S1024x1024x32, .f32⟩
  | .hbm, ⟨113, _⟩ => ⟨S_, .f32⟩
  | .hbm, ⟨114, _⟩ => ⟨S1024x1024x32, .f32⟩
  | .hbm, ⟨115, _⟩ => ⟨S1024x1024x32, .f32⟩
  | .hbm, ⟨116, _⟩ => ⟨S1024x1024x1, .f32⟩
  | .hbm, ⟨117, _⟩ => ⟨S1x1x1, .f32⟩
  | .hbm, ⟨118, _⟩ => ⟨S1024x1024x1, .f32⟩
  | .hbm, ⟨119, _⟩ => ⟨S1024x1024x1, .f32⟩
  | .hbm, ⟨120, _⟩ => ⟨S1024x1024, .f32⟩
  | _, _ => ⟨S2x256x360x360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_5 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call3_cst : Ref sig .tc := ⟨.hbm, 101, rfl⟩
abbrev main_call3_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call4_cst : Ref sig .tc := ⟨.hbm, 113, rfl⟩
abbrev main_call4_v0 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]

class Facts₀ : Prop where
  transposes_S2x256x360x360_S2x360x360x256_0_2_3_1 : S2x256x360x360.Transposes [0, 2, 3, 1] S2x360x360x256
  slices_S3x1024_S1x1024_0_0 : S3x1024.Slices ![0, 0] S1x1024
  shapeCasts_S1x1024_S1024 : S1x1024.ShapeCasts S1024
  slices_S3x1024_S1x1024_1_0 : S3x1024.Slices ![1, 0] S1x1024
  slices_S3x1024_S1x1024_2_0 : S3x1024.Slices ![2, 0] S1x1024
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x1_S1024x3_d1 : Shape.Concatenates [S1024x1, S1024x1, S1024x1] S1024x3 1
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  bcast_S32_S1x1x32_2 : S32.BroadcastsInDim S1x1x32 (![2] : Fin 1 → Fin S1x1x32.rank)
  bcast_S1x1x32_S1024x1024x32_0_1_2 : S1x1x32.BroadcastsInDim S1024x1024x32 (![0, 1, 2] : Fin 3 → Fin S1024x1024x32.rank)
  bcast_S_S1024x1024x32 : S_.BroadcastsInDim S1024x1024x32 (![] : Fin 0 → Fin S1024x1024x32.rank)
  bcast_S1_S1x1x1_2 : S1.BroadcastsInDim S1x1x1 (![2] : Fin 1 → Fin S1x1x1.rank)
  bcast_S1x1x1_S1024x1024x1_0_1_2 : S1x1x1.BroadcastsInDim S1024x1024x1 (![0, 1, 2] : Fin 3 → Fin S1024x1024x1.rank)
  shapeCasts_S1024x1024x1_S1024x1024 : S1024x1024x1.ShapeCasts S1024x1024
  gather_S2x360x360x256_S1024x3_S1024x256_1_012_n_n_012_1_111256_wf : GatherDims.WF S2x360x360x256 S1024x3 S1024x256 [1] [0, 1, 2] [] [0, 1, 2] [] 1 ![1, 1, 1, 256]
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  dot_S1024x1024x128_S128x32_S1024x1024x32_2_0_01_1_n_n_wf : DotDims.WF S1024x1024x128 S128x32 S1024x1024x32 [2] [0] [0, 1] [1] [] []
  dot_S1024x1024x32_S32x1_S1024x1024x1_2_0_01_1_n_n_wf : DotDims.WF S1024x1024x32 S32x1 S1024x1024x1 [2] [0] [0, 1] [1] [] []

variable [Facts₀]

def gather_S2x360x360x256_S1024x3_S1024x256_1_012_n_n_012_1_111256 : GatherDims S2x360x360x256 S1024x3 S1024x256 where
  offsetDims := [1]
  collapsedSliceDims := [0, 1, 2]
  operandBatchingDims := []
  startIndicesBatchingDims := []
  startIndexMap := [0, 1, 2]
  indexVectorDim := 1
  sliceSizes := ![1, 1, 1, 256]
  wf := gather_S2x360x360x256_S1024x3_S1024x256_1_012_n_n_012_1_111256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x1024x128_S128x32_S1024x1024x32_2_0_01_1_n_n : DotDims S1024x1024x128 S128x32 S1024x1024x32 where
  lhsContracting := [2]
  rhsContracting := [0]
  lhsNonContracting := [0, 1]
  rhsNonContracting := [1]
  lhsBatch := []
  rhsBatch := []
  wf := dot_S1024x1024x128_S128x32_S1024x1024x32_2_0_01_1_n_n_wf
def dot_S1024x1024x32_S32x1_S1024x1024x1_2_0_01_1_n_n : DotDims S1024x1024x32 S32x1 S1024x1024x1 where
  lhsContracting := [2]
  rhsContracting := [0]
  lhsNonContracting := [0, 1]
  rhsNonContracting := [1]
  lhsBatch := []
  rhsBatch := []
  wf := dot_S1024x1024x32_S32x1_S1024x1024x1_2_0_01_1_n_n_wf

class Facts : Prop extends Facts₀ where

variable [Facts]
-- ==== Proof.BitsProjCall.lean ====
/-
  The projection kernel's call (the first pallas_call: a two-point grid over the two stacked row sets) at
  whatever contents `V` the TensorCore's buffers hold when the call is entered.
  One grid point b reads the whole block b of the stacked rows (1024 × 256), the two weight matrices and the
  two bias rows whole, and stores one value into the whole output block b (1024 × 128): so what the output's
  staging buffer holds after the body is a single piece, the body's one stored value of the five input blocks.
  Stated here: the blocks, that stored value as the buffer's contents, the body's triple, and the per-point
  description of the call (what each window's buffer holds after the body), with its obligation.
-/
import proofs.«177041_j7370163880501_1_alg».proof.Proof.Gen.Kernel.Launch
import proofs.«177041_j7370163880501_1_alg».proof.Proof.Gen.Kernel.Skeleton
import proofs.«177041_j7370163880501_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of the window's array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there
    or kept it from the point before (then the block index has not moved). -/
theorem found_of_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_of_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_of_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem found_of_3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem found_of_4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The one rectangle the body stores through: the whole output block. -/
abbrev rOut : Rect S1x1024x128 := Rect.unit (s := S1x1024x128) ![0, 0, 0] S1x1024x128.size inb_S1x1024x128_S1x1024x128_0_0_0
abbrev rX : Rect S1x1024x256 := Rect.unit (s := S1x1024x256) ![0, 0, 0] S1x1024x256.size inb_S1x1024x256_S1x1024x256_0_0_0
abbrev rW1 : Rect S256x256 := Rect.unit (s := S256x256) ![0, 0] S256x256.size inb_S256x256_S256x256_0_0
abbrev rB1 : Rect S256 := Rect.unit (s := S256) ![0] S256.size inb_S256_S256_0
abbrev rW2 : Rect S256x128 := Rect.unit (s := S256x128) ![0, 0] S256x128.size inb_S256x128_S256x128_0_0
abbrev rB2 : Rect S128 := Rect.unit (s := S128) ![0] S128.size inb_S128_S128_0

/-- What the output block's staging buffer holds after the body: its single store, the body's value of the five
    input blocks as loaded. -/
def outBlk (x : Vec F S1x1024x256 .f32) (w1 : Vec F S256x256 .f32) (b1 : Vec F S256 .f32) (w2 : Vec F S256x128 .f32) (b2 : Vec F S128 .f32) :
    Vec F S1x1024x128 .bf16 :=
  View.canon [⟨rOut, k0_pay1 (View.ld x rX) (View.ld w1 rW1) (View.ld b1 rB1) (View.ld w2 rW2) (View.ld b2 rB2)⟩]

/-- The store covers the whole buffer. -/
theorem outCover (p0 : Vec F S1x1024x128 .bf16) (y : S1x1024x128.Idx) :
    ∃ pc ∈ ([⟨rOut, p0⟩] : List (View.Piece (Elt F) S1x1024x128 .bf16)), y ∈ pc.1.set :=
  View.cover_of_tiled [⟨rOut, p0⟩] S1x1024x128.size (by rfl) y

set_option maxHeartbeats 4000000 in
/-- The body, run on whole staging buffers holding the five input blocks and anything in the output's, ends with the
    inputs as they were and the output's buffer at `outBlk` of them. -/
theorem body_triple (c : Dev nD) (E : Set ℕ) (i : grid0.Coords)
    (arg1 : Memref sig .tc .vmem S1x1024x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x128 .f32) (harg4 : arg4.IsWhole)
    (arg5 : Memref sig .tc .vmem S128 .f32) (harg5 : arg5.IsWhole) (arg6 : Memref sig .tc .vmem S1x1024x128 .bf16) (harg6 : arg6.IsWhole)
    (x : Vec F S1x1024x256 .f32) (w1 : Vec F S256x256 .f32) (b1 : Vec F S256 .f32) (w2 : Vec F S256x128 .f32) (b2 : Vec F S128 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (outBlk x w1 b1 w2 b2)) -∗ K ⟨⟩))
      ⊢ wp frame (wpE (defs₀ (F := F)) Variants.none c none) E (cc0__project_kernel i arg1 harg1 arg2 harg2 arg3 harg3 arg4 harg4 arg5 harg5 arg6 harg6) K := by
  simp only [cc0__project_kernel_eq_skeleton]; unfold cc0__project_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-- The call's per-point description on core `c`: its arrays as the call finds them; after the body at point `t` each
    input's buffer still at its block and the output's at `outBlk` of the input blocks; the scoped rest and the
    generator register untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outBlk (blk V c 0 t) (blk V c 1 t) (blk V c 2 t) (blk V c 3 t) (blk V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) :
    (dat V c).after 5 t = outBlk (blk V c 0 t) (blk V c 1 t) (blk V c 2 t) (blk V c 3 t) (blk V c 4 t) := by dsimp only [dat]

theorem found_0 (c : Dev nD) (t : Fin cfg0.N) (d) : (dat V c).before 0 t d = blk V c 0 t :=
  found_of_0 V (dat V c) (dat_A V c 0) (after_0 V c) t d
theorem found_1 (c : Dev nD) (t : Fin cfg0.N) (d) : (dat V c).before 1 t d = blk V c 1 t :=
  found_of_1 V (dat V c) (dat_A V c 1) (after_1 V c) t d
theorem found_2 (c : Dev nD) (t : Fin cfg0.N) (d) : (dat V c).before 2 t d = blk V c 2 t :=
  found_of_2 V (dat V c) (dat_A V c 2) (after_2 V c) t d
theorem found_3 (c : Dev nD) (t : Fin cfg0.N) (d) : (dat V c).before 3 t d = blk V c 3 t :=
  found_of_3 V (dat V c) (dat_A V c 3) (after_3 V c) t d
theorem found_4 (c : Dev nD) (t : Fin cfg0.N) (d) : (dat V c).before 4 t d = blk V c 4 t :=
  found_of_4 V (dat V c) (dat_A V c 4) (after_4 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so the triple applies; the invariant and the core's
    debts pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_0, found_1, found_2, found_3, found_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the call, at every point. -/
theorem body_obligation (c : Dev nD) : BodyObligation (dat (F := F) V c) (defs₀ (F := F)) Variants.none () Set.univ := fun t => by
  rw [bigSep_W0, bigSep_W0]
  exact body_at V c t

end Cert.Kernel.Proj

end
-- ==== Proof.BitsPairCall.lean ====
/-
  The pairwise kernel's call (the second pallas_call: a 4 × 8 grid over 256-row by 128-column tiles of the
  1024 × 1024 result) at whatever contents `V` the TensorCore's buffers hold when the call is entered.
  One grid point (i, j) reads block i of the first feature matrix (256 × 128), block j of the second (128 × 128),
  the small weight matrix, the two 32-vectors and the one-element bias whole, and stores one value into the whole
  output tile (256 × 128): what the output's staging buffer holds after the body is a single piece, the body's one
  stored value of the six input blocks.
  Stated here: the blocks, that stored value as the buffer's contents, the body's triple, and the per-point
  description of the call with its obligation.
-/
import proofs.«177041_j7370163880501_1_alg».proof.Proof.Gen.Kernel.Launch
import proofs.«177041_j7370163880501_1_alg».proof.Proof.Gen.Kernel.Skeleton
import proofs.«177041_j7370163880501_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of the window's array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the pipeline fetched it there
    or kept it from the point before (then the block index has not moved). -/
theorem found_of_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_of_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_of_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem found_of_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem found_of_4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem found_of_5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The rectangles the body loads and stores through: each a whole block. -/
abbrev rOut : Rect S256x128 := Rect.unit (s := S256x128) ![0, 0] S256x128.size inb_S256x128_S256x128_0_0
abbrev rF1 : Rect S256x128 := Rect.unit (s := S256x128) ![0, 0] S256x128.size inb_S256x128_S256x128_0_0
abbrev rF2 : Rect S128x128 := Rect.unit (s := S128x128) ![0, 0] S128x128.size inb_S128x128_S128x128_0_0
abbrev rW3 : Rect S128x32 := Rect.unit (s := S128x32) ![0, 0] S128x32.size inb_S128x32_S128x32_0_0
abbrev rV32 : Rect S32 := Rect.unit (s := S32) ![0] S32.size inb_S32_S32_0
abbrev rB4 : Rect S1 := Rect.unit (s := S1) ![0] S1.size inb_S1_S1_0

/-- What the output tile's staging buffer holds after the body: its single store, the body's value of the six
    input blocks as loaded. -/
def outBlk (f1 : Vec F S256x128 .bf16) (f2 : Vec F S128x128 .bf16) (w3 : Vec F S128x32 .f32) (b3 : Vec F S32 .f32) (w4 : Vec F S32 .f32) (b4 : Vec F S1 .f32) :
    Vec F S256x128 .f32 :=
  View.canon [⟨rOut, k1_pay1 (View.ld f1 rF1) (View.ld f2 rF2) (View.ld w3 rW3) (View.ld b3 rV32) (View.ld w4 rV32) (View.ld b4 rB4)⟩]

/-- The store covers the whole buffer. -/
theorem outCover (p0 : Vec F S256x128 .f32) (y : S256x128.Idx) :
    ∃ pc ∈ ([⟨rOut, p0⟩] : List (View.Piece (Elt F) S256x128 .f32)), y ∈ pc.1.set :=
  View.cover_of_tiled [⟨rOut, p0⟩] S256x128.size (by rfl) y

set_option maxHeartbeats 4000000 in
/-- The body, run on whole staging buffers holding the six input blocks and anything in the output's, ends with the
    inputs as they were and the output's buffer at `outBlk` of them. -/
theorem body_triple (c : Dev nD) (E : Set ℕ) (i : grid1.Coords)
    (arg2 : Memref sig .tc .vmem S256x128 .bf16) (harg2 : arg2.IsWhole) (arg3 : Memref sig .tc .vmem S128x128 .bf16) (harg3 : arg3.IsWhole)
    (arg4 : Memref sig .tc .vmem S128x32 .f32) (harg4 : arg4.IsWhole) (arg5 : Memref sig .tc .vmem S32 .f32) (harg5 : arg5.IsWhole)
    (arg6 : Memref sig .tc .vmem S32 .f32) (harg6 : arg6.IsWhole) (arg7 : Memref sig .tc .vmem S1 .f32) (harg7 : arg7.IsWhole)
    (arg8 : Memref sig .tc .vmem S256x128 .f32) (harg8 : arg8.IsWhole)
    (f1 : Vec F S256x128 .bf16) (f2 : Vec F S128x128 .bf16) (w3 : Vec F S128x32 .f32) (b3 : Vec F S32 .f32) (w4 : Vec F S32 .f32) (b4 : Vec F S1 .f32)
    (K : PUnit → sProp 𝕄) :
    iprop(owns (c : Thread nD τ) arg2 fullShare f1 ∗ owns (c : Thread nD τ) arg3 fullShare f2 ∗ owns (c : Thread nD τ) arg4 fullShare w3
        ∗ owns (c : Thread nD τ) arg5 fullShare b3 ∗ owns (c : Thread nD τ) arg6 fullShare w4 ∗ owns (c : Thread nD τ) arg7 fullShare b4
        ∗ (∃ d, owns (c : Thread nD τ) arg8 fullShare d)
        ∗ (iprop(owns (c : Thread nD τ) arg2 fullShare f1 ∗ owns (c : Thread nD τ) arg3 fullShare f2 ∗ owns (c : Thread nD τ) arg4 fullShare w3
            ∗ owns (c : Thread nD τ) arg5 fullShare b3 ∗ owns (c : Thread nD τ) arg6 fullShare w4 ∗ owns (c : Thread nD τ) arg7 fullShare b4
            ∗ owns (c : Thread nD τ) arg8 fullShare (outBlk f1 f2 w3 b3 w4 b4)) -∗ K ⟨⟩))
      ⊢ wp frame (wpE (defs₀ (F := F)) Variants.none c none) E (cc1__pair_kernel i arg2 harg2 arg3 harg3 arg4 harg4 arg5 harg5 arg6 harg6 arg7 harg7 arg8 harg8) K := by
  simp only [cc1__pair_kernel_eq_skeleton]; unfold cc1__pair_kernel_skel
  unfold owns
  iintro ⟨⟨%g2, %hg2, H2⟩, ⟨%g3, %hg3, H3⟩, ⟨%g4, %hg4, H4⟩, ⟨%g5, %hg5, H5⟩, ⟨%g6, %hg6, H6⟩, ⟨%g7, %hg7, H7⟩, ⟨%d8, %g8, -, H8⟩, Hk⟩
  subst hg2 hg3 hg4 hg5 hg6 hg7
  sl_exec
  sl_step
  iapply Hk
  isplitl [H2]
  · iexists g2; isplitr; · ipureintro; rfl
    iexact H2
  isplitl [H3]
  · iexists g3; isplitr; · ipureintro; rfl
    iexact H3
  isplitl [H4]
  · iexists g4; isplitr; · ipureintro; rfl
    iexact H4
  isplitl [H5]
  · iexists g5; isplitr; · ipureintro; rfl
    iexact H5
  isplitl [H6]
  · iexists g6; isplitr; · ipureintro; rfl
    iexact H6
  isplitl [H7]
  · iexists g7; isplitr; · ipureintro; rfl
    iexact H7
  iexists _; isplitr
  swap; · iexact H8
  ipureintro
  exact View.read_writes_eq_canon _ _ _ (outCover _)

/-- The call's per-point description on core `c`: its arrays as the call finds them; after the body at point `t` each
    input's buffer still at its block and the output's at `outBlk` of the input blocks; the scoped rest and the
    generator register untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outBlk (blk V c 0 t) (blk V c 1 t) (blk V c 2 t) (blk V c 3 t) (blk V c 4 t) (blk V c 5 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) :
    (dat V c).after 6 t = outBlk (blk V c 0 t) (blk V c 1 t) (blk V c 2 t) (blk V c 3 t) (blk V c 4 t) (blk V c 5 t) := by dsimp only [dat]

theorem found_0 (c : Dev nD) (t : Fin cfg1.N) (d) : (dat V c).before 0 t d = blk V c 0 t :=
  found_of_0 V (dat V c) (dat_A V c 0) (after_0 V c) t d
theorem found_1 (c : Dev nD) (t : Fin cfg1.N) (d) : (dat V c).before 1 t d = blk V c 1 t :=
  found_of_1 V (dat V c) (dat_A V c 1) (after_1 V c) t d
theorem found_2 (c : Dev nD) (t : Fin cfg1.N) (d) : (dat V c).before 2 t d = blk V c 2 t :=
  found_of_2 V (dat V c) (dat_A V c 2) (after_2 V c) t d
theorem found_3 (c : Dev nD) (t : Fin cfg1.N) (d) : (dat V c).before 3 t d = blk V c 3 t :=
  found_of_3 V (dat V c) (dat_A V c 3) (after_3 V c) t d
theorem found_4 (c : Dev nD) (t : Fin cfg1.N) (d) : (dat V c).before 4 t d = blk V c 4 t :=
  found_of_4 V (dat V c) (dat_A V c 4) (after_4 V c) t d
theorem found_5 (c : Dev nD) (t : Fin cfg1.N) (d) : (dat V c).before 5 t d = blk V c 5 t :=
  found_of_5 V (dat V c) (dat_A V c 5) (after_5 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' buffers hold their blocks, so the triple applies; the invariant and the core's
    debts pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found_0, found_1, found_2, found_3, found_4, found_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the call, at every point. -/
theorem body_obligation (c : Dev nD) : BodyObligation (dat (F := F) V c) (defs₀ (F := F)) Variants.none () Set.univ := fun t => by
  rw [bigSep_W1, bigSep_W1]
  exact body_at V c t

end Cert.Kernel.Pair

end
-- ==== Proof.BitsMainRun.lean ====
/-
  @main of the kernel's program from launch to return, on every TensorCore: sixty-eight host operations (the two
  gathers of feature rows and their stacking), the projection call, five host operations (the two halves of its
  result as separate matrices, the last weight column as a vector), the pairwise call.
  The buffers' contents at each of the five boundaries are a fold from the launch memory: a host stretch applies its
  operations; a call leaves its arrays at what the pipeline's write-backs leave and every other buffer as entered.
  Each argument array reads back through the fold to its launch contents (no host operation writes one and a call
  only reads them). The run: every weakly fair execution terminates, nothing faults, and at the end every unscoped
  buffer holds the last boundary's contents — from which both the frame claim and the result's value are read.
-/
import proofs.«177041_j7370163880501_1_alg».proof.Proof.BitsProjCall
import proofs.«177041_j7370163880501_1_alg».proof.Proof.BitsPairCall

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch: what the projection call is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the pairwise call is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the pairwise call's exit: its arrays at what the pipeline leaves, every other buffer as entered. -/
def W4 (c : Dev nD) : Valuation τ sig (Elt F) :=
  Pipeline.withArrays spec1 c (W3 m ρ c) fun w => (Pair.dat (V3 m ρ) c).arrAt w cfg1.N
theorem W4_arr (c : Dev nD) (w : Fin cfg1.W) :
    W4 m ρ c (Proc.devRef .tc (Pipeline.arrRef spec1 w)) = (Pair.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Pair.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments read back to their launch contents -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg0) := rfl
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg0 (c : Dev nD) : W4 m ρ c (Proc.devRef .tc main_arg0) = m ((c : Thread nD τ).loc main_arg0) :=
  (W4_of_ne m ρ c main_arg0 (by decide)).trans (W3_main_arg0 m ρ c)

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg1) := rfl
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg1 (c : Dev nD) : W4 m ρ c (Proc.devRef .tc main_arg1) = m ((c : Thread nD τ).loc main_arg1) :=
  (W4_of_ne m ρ c main_arg1 (by decide)).trans (W3_main_arg1 m ρ c)

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg2) := rfl
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg2 (c : Dev nD) : W4 m ρ c (Proc.devRef .tc main_arg2) = m ((c : Thread nD τ).loc main_arg2) :=
  (W4_of_ne m ρ c main_arg2 (by decide)).trans (W3_main_arg2 m ρ c)

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg3) := (W2_arr m ρ c 1).trans (((Proj.dat (V1 m ρ) c).arrAt_in 1 rfl _).trans (Proj.dat_A (V1 m ρ) c 1))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg3) := rfl
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg3 (c : Dev nD) : W4 m ρ c (Proc.devRef .tc main_arg3) = m ((c : Thread nD τ).loc main_arg3) :=
  (W4_of_ne m ρ c main_arg3 (by decide)).trans (W3_main_arg3 m ρ c)

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg4) := (W2_arr m ρ c 2).trans (((Proj.dat (V1 m ρ) c).arrAt_in 2 rfl _).trans (Proj.dat_A (V1 m ρ) c 2))
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg4) := rfl
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg4 (c : Dev nD) : W4 m ρ c (Proc.devRef .tc main_arg4) = m ((c : Thread nD τ).loc main_arg4) :=
  (W4_of_ne m ρ c main_arg4 (by decide)).trans (W3_main_arg4 m ρ c)

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg5) := (W2_arr m ρ c 3).trans (((Proj.dat (V1 m ρ) c).arrAt_in 3 rfl _).trans (Proj.dat_A (V1 m ρ) c 3))
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg5) := rfl
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg5 (c : Dev nD) : W4 m ρ c (Proc.devRef .tc main_arg5) = m ((c : Thread nD τ).loc main_arg5) :=
  (W4_of_ne m ρ c main_arg5 (by decide)).trans (W3_main_arg5 m ρ c)

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg6) := (W2_arr m ρ c 4).trans (((Proj.dat (V1 m ρ) c).arrAt_in 4 rfl _).trans (Proj.dat_A (V1 m ρ) c 4))
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg6) := rfl
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg6 (c : Dev nD) : W4 m ρ c (Proc.devRef .tc main_arg6) = m ((c : Thread nD τ).loc main_arg6) :=
  (W4_of_ne m ρ c main_arg6 (by decide)).trans (W3_main_arg6 m ρ c)

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg7) := rfl
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg7 (c : Dev nD) : W4 m ρ c (Proc.devRef .tc main_arg7) = m ((c : Thread nD τ).loc main_arg7) :=
  ((W4_arr m ρ c 2).trans (((Pair.dat (V3 m ρ) c).arrAt_in 2 rfl _).trans (Pair.dat_A (V3 m ρ) c 2))).trans (W3_main_arg7 m ρ c)

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg8) := rfl
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg8 (c : Dev nD) : W4 m ρ c (Proc.devRef .tc main_arg8) = m ((c : Thread nD τ).loc main_arg8) :=
  ((W4_arr m ρ c 3).trans (((Pair.dat (V3 m ρ) c).arrAt_in 3 rfl _).trans (Pair.dat_A (V3 m ρ) c 3))).trans (W3_main_arg8 m ρ c)

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg9) := rfl
theorem W1_main_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg9 (c : Dev nD) : W4 m ρ c (Proc.devRef .tc main_arg9) = m ((c : Thread nD τ).loc main_arg9) :=
  (W4_of_ne m ρ c main_arg9 (by decide)).trans (W3_main_arg9 m ρ c)

theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg10) := rfl
theorem W1_main_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg10 (c : Dev nD) : W4 m ρ c (Proc.devRef .tc main_arg10) = m ((c : Thread nD τ).loc main_arg10) :=
  ((W4_arr m ρ c 5).trans (((Pair.dat (V3 m ρ) c).arrAt_in 5 rfl _).trans (Pair.dat_A (V3 m ρ) c 5))).trans (W3_main_arg10 m ρ c)

/-! ## The calls' descriptions as a family, and what rides beside the buffers -/

abbrev adm : (p : Fin 2) → (pcfgs (F := F) p).Adm := fun p => (cfgs p).toPCfg_adm
/-- Each call's per-point description, at the contents its call is entered with. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Pair.dat (V3 m ρ) c
abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debts: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- Call 0 as a segment of @main: entered with every unscoped buffer at `W1`, left with them at the next
    boundary's contents. Its arrays are split out of the unscoped buffers at entry and put back, at what the
    pipeline's write-backs leave, at the exit; the generator register goes into the call's invariant and comes back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at `W3`, left with them at the next
    boundary's contents. Its arrays are split out of the unscoped buffers at entry and put back, at what the
    pipeline's write-backs leave, at the exit; the generator register goes into the call's invariant and comes back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Pair.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of these segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame claim at any `F`: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c)⟩) (run_all m ρ)

/-- The result array at the end: what the pairwise call's write-backs leave in it. -/
theorem result_eq (c : Dev nD) : W4 m ρ c (Proc.devRef .tc main_v62) = (Pair.dat (V3 m ρ) c).arrAt 6 cfg1.N :=
  W4_arr m ρ c 6

end Cert.Kernel.Whole

end
-- ==== Proof.ProjCall.lean ====
/-
  The projection kernel's call (the first pallas_call: a two-point grid over the two stacked row sets) at
  whatever contents `V` the TensorCore's buffers hold when the call is entered.
  One grid point b reads the whole block b of the stacked rows (1024 × 256), the two weight matrices and the
  two bias rows whole, and stores one value into the whole output block b (1024 × 128): so what the output's
  staging buffer holds after the body is a single piece, the body's one stored value of the five input blocks.
  Stated here: the blocks, that stored value as the buffer's contents, the body's triple, and the per-point
  description of the call (what each window's buffer holds after the body), with its obligation.
-/
import proofs.«177041_j7370163880501_1_alg».proof.Proof.Gen.KernelIdeal.Launch
import proofs.«177041_j7370163880501_1_alg».proof.Proof.Gen.KernelIdeal.Skeleton
import proofs.«177041_j7370163880501_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of the window's array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there
    or kept it from the point before (then the block index has not moved). -/
theorem found_of_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_of_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_of_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem found_of_3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem found_of_4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The one rectangle the body stores through: the whole output block. -/
abbrev rOut : Rect S1x1024x128 := Rect.unit (s := S1x1024x128) ![0, 0, 0] S1x1024x128.size inb_S1x1024x128_S1x1024x128_0_0_0
abbrev rX : Rect S1x1024x256 := Rect.unit (s := S1x1024x256) ![0, 0, 0] S1x1024x256.size inb_S1x1024x256_S1x1024x256_0_0_0
abbrev rW1 : Rect S256x256 := Rect.unit (s := S256x256) ![0, 0] S256x256.size inb_S256x256_S256x256_0_0
abbrev rB1 : Rect S256 := Rect.unit (s := S256) ![0] S256.size inb_S256_S256_0
abbrev rW2 : Rect S256x128 := Rect.unit (s := S256x128) ![0, 0] S256x128.size inb_S256x128_S256x128_0_0
abbrev rB2 : Rect S128 := Rect.unit (s := S128) ![0] S128.size inb_S128_S128_0

/-- What the output block's staging buffer holds after the body: its single store, the body's value of the five
    input blocks as loaded. -/
def outBlk (x : Vec F S1x1024x256 .f32) (w1 : Vec F S256x256 .f32) (b1 : Vec F S256 .f32) (w2 : Vec F S256x128 .f32) (b2 : Vec F S128 .f32) :
    Vec F S1x1024x128 .bf16 :=
  View.canon [⟨rOut, k0_pay1 (View.ld x rX) (View.ld w1 rW1) (View.ld b1 rB1) (View.ld w2 rW2) (View.ld b2 rB2)⟩]

/-- The store covers the whole buffer. -/
theorem outCover (p0 : Vec F S1x1024x128 .bf16) (y : S1x1024x128.Idx) :
    ∃ pc ∈ ([⟨rOut, p0⟩] : List (View.Piece (Elt F) S1x1024x128 .bf16)), y ∈ pc.1.set :=
  View.cover_of_tiled [⟨rOut, p0⟩] S1x1024x128.size (by rfl) y

set_option maxHeartbeats 4000000 in
/-- The body, run on whole staging buffers holding the five input blocks and anything in the output's, ends with the
    inputs as they were and the output's buffer at `outBlk` of them. -/
theorem body_triple (c : Dev nD) (E : Set ℕ) (i : grid0.Coords)
    (arg1 : Memref sig .tc .vmem S1x1024x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x128 .f32) (harg4 : arg4.IsWhole)
    (arg5 : Memref sig .tc .vmem S128 .f32) (harg5 : arg5.IsWhole) (arg6 : Memref sig .tc .vmem S1x1024x128 .bf16) (harg6 : arg6.IsWhole)
    (x : Vec F S1x1024x256 .f32) (w1 : Vec F S256x256 .f32) (b1 : Vec F S256 .f32) (w2 : Vec F S256x128 .f32) (b2 : Vec F S128 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (outBlk x w1 b1 w2 b2)) -∗ K ⟨⟩))
      ⊢ wp frame (wpE (defs₀ (F := F)) Variants.none c none) E (cc0__project_kernel i arg1 harg1 arg2 harg2 arg3 harg3 arg4 harg4 arg5 harg5 arg6 harg6) K := by
  simp only [cc0__project_kernel_eq_skeleton]; unfold cc0__project_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-- The call's per-point description on core `c`: its arrays as the call finds them; after the body at point `t` each
    input's buffer still at its block and the output's at `outBlk` of the input blocks; the scoped rest and the
    generator register untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outBlk (blk V c 0 t) (blk V c 1 t) (blk V c 2 t) (blk V c 3 t) (blk V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) :
    (dat V c).after 5 t = outBlk (blk V c 0 t) (blk V c 1 t) (blk V c 2 t) (blk V c 3 t) (blk V c 4 t) := by dsimp only [dat]

theorem found_0 (c : Dev nD) (t : Fin cfg0.N) (d) : (dat V c).before 0 t d = blk V c 0 t :=
  found_of_0 V (dat V c) (dat_A V c 0) (after_0 V c) t d
theorem found_1 (c : Dev nD) (t : Fin cfg0.N) (d) : (dat V c).before 1 t d = blk V c 1 t :=
  found_of_1 V (dat V c) (dat_A V c 1) (after_1 V c) t d
theorem found_2 (c : Dev nD) (t : Fin cfg0.N) (d) : (dat V c).before 2 t d = blk V c 2 t :=
  found_of_2 V (dat V c) (dat_A V c 2) (after_2 V c) t d
theorem found_3 (c : Dev nD) (t : Fin cfg0.N) (d) : (dat V c).before 3 t d = blk V c 3 t :=
  found_of_3 V (dat V c) (dat_A V c 3) (after_3 V c) t d
theorem found_4 (c : Dev nD) (t : Fin cfg0.N) (d) : (dat V c).before 4 t d = blk V c 4 t :=
  found_of_4 V (dat V c) (dat_A V c 4) (after_4 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so the triple applies; the invariant and the core's
    debts pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_0, found_1, found_2, found_3, found_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the call, at every point. -/
theorem body_obligation (c : Dev nD) : BodyObligation (dat (F := F) V c) (defs₀ (F := F)) Variants.none () Set.univ := fun t => by
  rw [bigSep_W0, bigSep_W0]
  exact body_at V c t

end Cert.KernelIdeal.Proj

end
-- ==== Proof.PairCall.lean ====
/-
  The pairwise kernel's call (the second pallas_call: a 4 × 8 grid over 256-row by 128-column tiles of the
  1024 × 1024 result) at whatever contents `V` the TensorCore's buffers hold when the call is entered.
  One grid point (i, j) reads block i of the first feature matrix (256 × 128), block j of the second (128 × 128),
  the small weight matrix, the two 32-vectors and the one-element bias whole, and stores one value into the whole
  output tile (256 × 128): what the output's staging buffer holds after the body is a single piece, the body's one
  stored value of the six input blocks.
  Stated here: the blocks, that stored value as the buffer's contents, the body's triple, and the per-point
  description of the call with its obligation.
-/
import proofs.«177041_j7370163880501_1_alg».proof.Proof.Gen.KernelIdeal.Launch
import proofs.«177041_j7370163880501_1_alg».proof.Proof.Gen.KernelIdeal.Skeleton
import proofs.«177041_j7370163880501_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of the window's array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the pipeline fetched it there
    or kept it from the point before (then the block index has not moved). -/
theorem found_of_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_of_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_of_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem found_of_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem found_of_4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem found_of_5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The rectangles the body loads and stores through: each a whole block. -/
abbrev rOut : Rect S256x128 := Rect.unit (s := S256x128) ![0, 0] S256x128.size inb_S256x128_S256x128_0_0
abbrev rF1 : Rect S256x128 := Rect.unit (s := S256x128) ![0, 0] S256x128.size inb_S256x128_S256x128_0_0
abbrev rF2 : Rect S128x128 := Rect.unit (s := S128x128) ![0, 0] S128x128.size inb_S128x128_S128x128_0_0
abbrev rW3 : Rect S128x32 := Rect.unit (s := S128x32) ![0, 0] S128x32.size inb_S128x32_S128x32_0_0
abbrev rV32 : Rect S32 := Rect.unit (s := S32) ![0] S32.size inb_S32_S32_0
abbrev rB4 : Rect S1 := Rect.unit (s := S1) ![0] S1.size inb_S1_S1_0

/-- What the output tile's staging buffer holds after the body: its single store, the body's value of the six
    input blocks as loaded. -/
def outBlk (f1 : Vec F S256x128 .bf16) (f2 : Vec F S128x128 .bf16) (w3 : Vec F S128x32 .f32) (b3 : Vec F S32 .f32) (w4 : Vec F S32 .f32) (b4 : Vec F S1 .f32) :
    Vec F S256x128 .f32 :=
  View.canon [⟨rOut, k1_pay1 (View.ld f1 rF1) (View.ld f2 rF2) (View.ld w3 rW3) (View.ld b3 rV32) (View.ld w4 rV32) (View.ld b4 rB4)⟩]

/-- The store covers the whole buffer. -/
theorem outCover (p0 : Vec F S256x128 .f32) (y : S256x128.Idx) :
    ∃ pc ∈ ([⟨rOut, p0⟩] : List (View.Piece (Elt F) S256x128 .f32)), y ∈ pc.1.set :=
  View.cover_of_tiled [⟨rOut, p0⟩] S256x128.size (by rfl) y

set_option maxHeartbeats 4000000 in
/-- The body, run on whole staging buffers holding the six input blocks and anything in the output's, ends with the
    inputs as they were and the output's buffer at `outBlk` of them. -/
theorem body_triple (c : Dev nD) (E : Set ℕ) (i : grid1.Coords)
    (arg2 : Memref sig .tc .vmem S256x128 .bf16) (harg2 : arg2.IsWhole) (arg3 : Memref sig .tc .vmem S128x128 .bf16) (harg3 : arg3.IsWhole)
    (arg4 : Memref sig .tc .vmem S128x32 .f32) (harg4 : arg4.IsWhole) (arg5 : Memref sig .tc .vmem S32 .f32) (harg5 : arg5.IsWhole)
    (arg6 : Memref sig .tc .vmem S32 .f32) (harg6 : arg6.IsWhole) (arg7 : Memref sig .tc .vmem S1 .f32) (harg7 : arg7.IsWhole)
    (arg8 : Memref sig .tc .vmem S256x128 .f32) (harg8 : arg8.IsWhole)
    (f1 : Vec F S256x128 .bf16) (f2 : Vec F S128x128 .bf16) (w3 : Vec F S128x32 .f32) (b3 : Vec F S32 .f32) (w4 : Vec F S32 .f32) (b4 : Vec F S1 .f32)
    (K : PUnit → sProp 𝕄) :
    iprop(owns (c : Thread nD τ) arg2 fullShare f1 ∗ owns (c : Thread nD τ) arg3 fullShare f2 ∗ owns (c : Thread nD τ) arg4 fullShare w3
        ∗ owns (c : Thread nD τ) arg5 fullShare b3 ∗ owns (c : Thread nD τ) arg6 fullShare w4 ∗ owns (c : Thread nD τ) arg7 fullShare b4
        ∗ (∃ d, owns (c : Thread nD τ) arg8 fullShare d)
        ∗ (iprop(owns (c : Thread nD τ) arg2 fullShare f1 ∗ owns (c : Thread nD τ) arg3 fullShare f2 ∗ owns (c : Thread nD τ) arg4 fullShare w3
            ∗ owns (c : Thread nD τ) arg5 fullShare b3 ∗ owns (c : Thread nD τ) arg6 fullShare w4 ∗ owns (c : Thread nD τ) arg7 fullShare b4
            ∗ owns (c : Thread nD τ) arg8 fullShare (outBlk f1 f2 w3 b3 w4 b4)) -∗ K ⟨⟩))
      ⊢ wp frame (wpE (defs₀ (F := F)) Variants.none c none) E (cc1__pair_kernel i arg2 harg2 arg3 harg3 arg4 harg4 arg5 harg5 arg6 harg6 arg7 harg7 arg8 harg8) K := by
  simp only [cc1__pair_kernel_eq_skeleton]; unfold cc1__pair_kernel_skel
  unfold owns
  iintro ⟨⟨%g2, %hg2, H2⟩, ⟨%g3, %hg3, H3⟩, ⟨%g4, %hg4, H4⟩, ⟨%g5, %hg5, H5⟩, ⟨%g6, %hg6, H6⟩, ⟨%g7, %hg7, H7⟩, ⟨%d8, %g8, -, H8⟩, Hk⟩
  subst hg2 hg3 hg4 hg5 hg6 hg7
  sl_exec
  sl_step
  iapply Hk
  isplitl [H2]
  · iexists g2; isplitr; · ipureintro; rfl
    iexact H2
  isplitl [H3]
  · iexists g3; isplitr; · ipureintro; rfl
    iexact H3
  isplitl [H4]
  · iexists g4; isplitr; · ipureintro; rfl
    iexact H4
  isplitl [H5]
  · iexists g5; isplitr; · ipureintro; rfl
    iexact H5
  isplitl [H6]
  · iexists g6; isplitr; · ipureintro; rfl
    iexact H6
  isplitl [H7]
  · iexists g7; isplitr; · ipureintro; rfl
    iexact H7
  iexists _; isplitr
  swap; · iexact H8
  ipureintro
  exact View.read_writes_eq_canon _ _ _ (outCover _)

/-- The call's per-point description on core `c`: its arrays as the call finds them; after the body at point `t` each
    input's buffer still at its block and the output's at `outBlk` of the input blocks; the scoped rest and the
    generator register untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outBlk (blk V c 0 t) (blk V c 1 t) (blk V c 2 t) (blk V c 3 t) (blk V c 4 t) (blk V c 5 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) :
    (dat V c).after 6 t = outBlk (blk V c 0 t) (blk V c 1 t) (blk V c 2 t) (blk V c 3 t) (blk V c 4 t) (blk V c 5 t) := by dsimp only [dat]

theorem found_0 (c : Dev nD) (t : Fin cfg1.N) (d) : (dat V c).before 0 t d = blk V c 0 t :=
  found_of_0 V (dat V c) (dat_A V c 0) (after_0 V c) t d
theorem found_1 (c : Dev nD) (t : Fin cfg1.N) (d) : (dat V c).before 1 t d = blk V c 1 t :=
  found_of_1 V (dat V c) (dat_A V c 1) (after_1 V c) t d
theorem found_2 (c : Dev nD) (t : Fin cfg1.N) (d) : (dat V c).before 2 t d = blk V c 2 t :=
  found_of_2 V (dat V c) (dat_A V c 2) (after_2 V c) t d
theorem found_3 (c : Dev nD) (t : Fin cfg1.N) (d) : (dat V c).before 3 t d = blk V c 3 t :=
  found_of_3 V (dat V c) (dat_A V c 3) (after_3 V c) t d
theorem found_4 (c : Dev nD) (t : Fin cfg1.N) (d) : (dat V c).before 4 t d = blk V c 4 t :=
  found_of_4 V (dat V c) (dat_A V c 4) (after_4 V c) t d
theorem found_5 (c : Dev nD) (t : Fin cfg1.N) (d) : (dat V c).before 5 t d = blk V c 5 t :=
  found_of_5 V (dat V c) (dat_A V c 5) (after_5 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' buffers hold their blocks, so the triple applies; the invariant and the core's
    debts pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found_0, found_1, found_2, found_3, found_4, found_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the call, at every point. -/
theorem body_obligation (c : Dev nD) : BodyObligation (dat (F := F) V c) (defs₀ (F := F)) Variants.none () Set.univ := fun t => by
  rw [bigSep_W1, bigSep_W1]
  exact body_at V c t

end Cert.KernelIdeal.Pair

end
-- ==== Proof.MainRun.lean ====
/-
  @main of the kernel's program from launch to return, on every TensorCore: sixty-eight host operations (the two
  gathers of feature rows and their stacking), the projection call, five host operations (the two halves of its
  result as separate matrices, the last weight column as a vector), the pairwise call.
  The buffers' contents at each of the five boundaries are a fold from the launch memory: a host stretch applies its
  operations; a call leaves its arrays at what the pipeline's write-backs leave and every other buffer as entered.
  Each argument array reads back through the fold to its launch contents (no host operation writes one and a call
  only reads them). The run: every weakly fair execution terminates, nothing faults, and at the end every unscoped
  buffer holds the last boundary's contents — from which both the frame claim and the result's value are read.
-/
import proofs.«177041_j7370163880501_1_alg».proof.Proof.ProjCall
import proofs.«177041_j7370163880501_1_alg».proof.Proof.PairCall

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch: what the projection call is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the pairwise call is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the pairwise call's exit: its arrays at what the pipeline leaves, every other buffer as entered. -/
def W4 (c : Dev nD) : Valuation τ sig (Elt F) :=
  Pipeline.withArrays spec1 c (W3 m ρ c) fun w => (Pair.dat (V3 m ρ) c).arrAt w cfg1.N
theorem W4_arr (c : Dev nD) (w : Fin cfg1.W) :
    W4 m ρ c (Proc.devRef .tc (Pipeline.arrRef spec1 w)) = (Pair.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Pair.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments read back to their launch contents -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg0) := rfl
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg0 (c : Dev nD) : W4 m ρ c (Proc.devRef .tc main_arg0) = m ((c : Thread nD τ).loc main_arg0) :=
  (W4_of_ne m ρ c main_arg0 (by decide)).trans (W3_main_arg0 m ρ c)

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg1) := rfl
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg1 (c : Dev nD) : W4 m ρ c (Proc.devRef .tc main_arg1) = m ((c : Thread nD τ).loc main_arg1) :=
  (W4_of_ne m ρ c main_arg1 (by decide)).trans (W3_main_arg1 m ρ c)

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg2) := rfl
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg2 (c : Dev nD) : W4 m ρ c (Proc.devRef .tc main_arg2) = m ((c : Thread nD τ).loc main_arg2) :=
  (W4_of_ne m ρ c main_arg2 (by decide)).trans (W3_main_arg2 m ρ c)

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg3) := (W2_arr m ρ c 1).trans (((Proj.dat (V1 m ρ) c).arrAt_in 1 rfl _).trans (Proj.dat_A (V1 m ρ) c 1))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg3) := rfl
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg3 (c : Dev nD) : W4 m ρ c (Proc.devRef .tc main_arg3) = m ((c : Thread nD τ).loc main_arg3) :=
  (W4_of_ne m ρ c main_arg3 (by decide)).trans (W3_main_arg3 m ρ c)

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg4) := (W2_arr m ρ c 2).trans (((Proj.dat (V1 m ρ) c).arrAt_in 2 rfl _).trans (Proj.dat_A (V1 m ρ) c 2))
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg4) := rfl
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg4 (c : Dev nD) : W4 m ρ c (Proc.devRef .tc main_arg4) = m ((c : Thread nD τ).loc main_arg4) :=
  (W4_of_ne m ρ c main_arg4 (by decide)).trans (W3_main_arg4 m ρ c)

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg5) := (W2_arr m ρ c 3).trans (((Proj.dat (V1 m ρ) c).arrAt_in 3 rfl _).trans (Proj.dat_A (V1 m ρ) c 3))
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg5) := rfl
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg5 (c : Dev nD) : W4 m ρ c (Proc.devRef .tc main_arg5) = m ((c : Thread nD τ).loc main_arg5) :=
  (W4_of_ne m ρ c main_arg5 (by decide)).trans (W3_main_arg5 m ρ c)

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg6) := (W2_arr m ρ c 4).trans (((Proj.dat (V1 m ρ) c).arrAt_in 4 rfl _).trans (Proj.dat_A (V1 m ρ) c 4))
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg6) := rfl
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg6 (c : Dev nD) : W4 m ρ c (Proc.devRef .tc main_arg6) = m ((c : Thread nD τ).loc main_arg6) :=
  (W4_of_ne m ρ c main_arg6 (by decide)).trans (W3_main_arg6 m ρ c)

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg7) := rfl
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg7 (c : Dev nD) : W4 m ρ c (Proc.devRef .tc main_arg7) = m ((c : Thread nD τ).loc main_arg7) :=
  ((W4_arr m ρ c 2).trans (((Pair.dat (V3 m ρ) c).arrAt_in 2 rfl _).trans (Pair.dat_A (V3 m ρ) c 2))).trans (W3_main_arg7 m ρ c)

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg8) := rfl
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg8 (c : Dev nD) : W4 m ρ c (Proc.devRef .tc main_arg8) = m ((c : Thread nD τ).loc main_arg8) :=
  ((W4_arr m ρ c 3).trans (((Pair.dat (V3 m ρ) c).arrAt_in 3 rfl _).trans (Pair.dat_A (V3 m ρ) c 3))).trans (W3_main_arg8 m ρ c)

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg9) := rfl
theorem W1_main_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg9 (c : Dev nD) : W4 m ρ c (Proc.devRef .tc main_arg9) = m ((c : Thread nD τ).loc main_arg9) :=
  (W4_of_ne m ρ c main_arg9 (by decide)).trans (W3_main_arg9 m ρ c)

theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
          simp only [hostOps1, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))
    _ = m ((c : Thread nD τ).loc main_arg10) := rfl
theorem W1_main_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.nary_writes, StableHlo.reshape_writes, Finset.mem_singleton]
          repeat' apply And.intro
          all_goals exact StableHlo.devRef_ne_of_ne (by decide)))).trans rfl
theorem W4_main_arg10 (c : Dev nD) : W4 m ρ c (Proc.devRef .tc main_arg10) = m ((c : Thread nD τ).loc main_arg10) :=
  ((W4_arr m ρ c 5).trans (((Pair.dat (V3 m ρ) c).arrAt_in 5 rfl _).trans (Pair.dat_A (V3 m ρ) c 5))).trans (W3_main_arg10 m ρ c)

/-! ## The calls' descriptions as a family, and what rides beside the buffers -/

abbrev adm : (p : Fin 2) → (pcfgs (F := F) p).Adm := fun p => (cfgs p).toPCfg_adm
/-- Each call's per-point description, at the contents its call is entered with. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Pair.dat (V3 m ρ) c
abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debts: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- Call 0 as a segment of @main: entered with every unscoped buffer at `W1`, left with them at the next
    boundary's contents. Its arrays are split out of the unscoped buffers at entry and put back, at what the
    pipeline's write-backs leave, at the exit; the generator register goes into the call's invariant and comes back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at `W3`, left with them at the next
    boundary's contents. Its arrays are split out of the unscoped buffers at entry and put back, at what the
    pipeline's write-backs leave, at the exit; the generator register goes into the call's invariant and comes back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Pair.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of these segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame claim at any `F`: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c)⟩) (run_all m ρ)

/-- The result array at the end: what the pairwise call's write-backs leave in it. -/
theorem result_eq (c : Dev nD) : W4 m ρ c (Proc.devRef .tc main_v62) = (Pair.dat (V3 m ρ) c).arrAt 6 cfg1.N :=
  W4_arr m ρ c 6

end Cert.KernelIdeal.Whole

end
-- ==== Proof.Spec.lean ====
/-
  What both programs compute, as plain functions on the extended reals.
  Two sets of 1024 feature rows of 256 channels are each taken through the same two-layer perceptron
  (256 → 256 → 128, the positive part after each layer); then for every pair (m, n) of a row of the first set and a
  row of the second, the difference of the two 128-vectors goes through a 128 → 32 layer with the positive part,
  and the 32 results are weighted, summed and shifted by one bias.
  The zero that the positive part compares with is kept as the word both programs write for it.
-/
import Idealize.ShloMosaic.PureOps.Ideal
import Idealize.ShloMosaic.Lib.ValueIdx

noncomputable section

namespace Cert.Sim

open Idealize.ShloMosaic Idealize.ShloMosaic.ValueIdx

/-- The zero the positive part is taken against. -/
abbrev z : EReal := Ideal.ofBits .f32 0x00000000#32

/-- One row set through the two layers: entry (n, j) of `relu(relu(X·W₁ + b₁)·W₂ + b₂)`. -/
def proj (X : Fin 1024 → Fin 256 → EReal) (w1 : FVec Ideal ⟨2, ![256, 256]⟩ .f32) (b1 : FVec Ideal ⟨1, ![256]⟩ .f32)
    (w2 : FVec Ideal ⟨2, ![256, 128]⟩ .f32) (b2 : FVec Ideal ⟨1, ![128]⟩ .f32) (n : Fin 1024) (j : Fin 128) : EReal :=
  max ((∑ k : Fin 256, max ((∑ c : Fin 256, X n c * w1 (ix2 c k)) + b1 (ix1 k)) z * w2 (ix2 k j)) + b2 (ix1 j)) z

/-- The similarity of row m of the first projected set and row n of the second:
    `Σₖ relu(Σ_d (f₁[m,d] − f₂[n,d])·W₃[d,k] + b₃[k])·w₄[k] + b₄`. -/
def sim (f1 f2 : Fin 1024 → Fin 128 → EReal) (w3 : FVec Ideal ⟨2, ![128, 32]⟩ .f32) (b3 : FVec Ideal ⟨1, ![32]⟩ .f32)
    (w4 : Fin 32 → EReal) (b4 : EReal) (m n : Fin 1024) : EReal :=
  (∑ k : Fin 32, max ((∑ d : Fin 128, (f1 m d - f2 n d) * w3 (ix2 d k)) + b3 (ix1 k)) z * w4 k) + b4

/-- The whole result at (m, n), from the two gathered row sets and the nine parameter arrays. -/
def out (X1 X2 : Fin 1024 → Fin 256 → EReal) (w1 : FVec Ideal ⟨2, ![256, 256]⟩ .f32) (b1 : FVec Ideal ⟨1, ![256]⟩ .f32)
    (w2 : FVec Ideal ⟨2, ![256, 128]⟩ .f32) (b2 : FVec Ideal ⟨1, ![128]⟩ .f32)
    (w3 : FVec Ideal ⟨2, ![128, 32]⟩ .f32) (b3 : FVec Ideal ⟨1, ![32]⟩ .f32)
    (w4 : FVec Ideal ⟨2, ![32, 1]⟩ .f32) (b4 : FVec Ideal ⟨1, ![1]⟩ .f32) (m n : Fin 1024) : EReal :=
  sim (proj X1 w1 b1 w2 b2) (proj X2 w1 b1 w2 b2) w3 b3 (fun k => w4 (ix2 k 0)) (b4 (ix1 0)) m n

end Cert.Sim

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.ProjValue.lean ====
/-
  The projection call's result array on the extended reals: entry (b, n, j) of the stacked output is the two-layer
  perceptron `Sim.proj` of row set b of the stacked input, at (n, j).
-/
import proofs.«177041_j7370163880501_1_alg».proof.Proof.ProjCall
import proofs.«177041_j7370163880501_1_alg».proof.Proof.Spec
import proofs.«177041_j7370163880501_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The stacked output as one function of the stacked input and the four parameter arrays. -/
def projArr (X : Vec Ideal S2x1024x256 .f32) (w1 : Vec Ideal S256x256 .f32) (b1 : Vec Ideal S256 .f32) (w2 : Vec Ideal S256x128 .f32) (b2 : Vec Ideal S128 .f32) :
    Vec Ideal S2x1024x128 .bf16 := fun i =>
  Cert.Sim.proj (fun n k => X (ix3 (⟨(i 0).val, (i 0).isLt⟩ : Fin 2) n k)) w1 b1 w2 b2 ⟨(i 1).val, (i 1).isLt⟩ ⟨(i 2).val, (i 2).isLt⟩

/-- Offsets written as a literal list of zeros are the zero function. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Dropping the leading unit axis of a [1, R, C] block: entry (p, q) is entry (0, p, q). -/
theorem cast_drop {α : Type} {R C : Nat} (v : (⟨3, ![1, R, C]⟩ : Shape).Idx → α) (h : (⟨3, ![1, R, C]⟩ : Shape).ShapeCasts ⟨2, ![R, C]⟩)
    (p : Fin R) (q : Fin C) : shapeCast ⟨2, ![R, C]⟩ v h (ix2 p q) = v (ix3 (0 : Fin 1) p q) := by
  refine shapeCast_apply v h (ix2 p q) (ix3 (0 : Fin 1) p q) ?_
  rw [Shape.rowMajor_val_three, Shape.rowMajor_val_two]
  show ((0 : Nat) * R + p.val) * C + q.val = p.val * C + q.val
  rw [Nat.zero_mul, Nat.zero_add]

/-- Adding a leading unit axis to an [R, C] matrix: entry (0, p, q) is entry (p, q). -/
theorem cast_add {α : Type} {R C : Nat} (v : (⟨2, ![R, C]⟩ : Shape).Idx → α) (h : (⟨2, ![R, C]⟩ : Shape).ShapeCasts ⟨3, ![1, R, C]⟩)
    (p : Fin R) (q : Fin C) : shapeCast ⟨3, ![1, R, C]⟩ v h (ix3 (0 : Fin 1) p q) = v (ix2 p q) := by
  refine shapeCast_apply v h (ix3 (0 : Fin 1) p q) (ix2 p q) ?_
  rw [Shape.rowMajor_val_three, Shape.rowMajor_val_two]
  show p.val * C + q.val = ((0 : Nat) * R + p.val) * C + q.val
  rw [Nat.zero_mul, Nat.zero_add]

/-- A bias row [C] viewed as [1, C] and repeated down R rows: entry (p, q) is entry q of the row. -/
theorem row_bcast {α : Type} {R C : Nat} (v : (⟨1, ![C]⟩ : Shape).Idx → α) (h : (⟨1, ![C]⟩ : Shape).ShapeCasts ⟨2, ![1, C]⟩)
    (hb : (⟨2, ![1, C]⟩ : Shape).Broadcasts ⟨2, ![R, C]⟩) (hC : C ≠ 1) (p : Fin R) (q : Fin C) :
    broadcastTo ⟨2, ![R, C]⟩ (shapeCast ⟨2, ![1, C]⟩ v h) hb (ix2 p q) = v (ix1 q) := by
  refine (broadcastTo_apply _ hb (ix2 p q) (ix2 (0 : Fin 1) q) ?_).trans ?_
  · intro a
    match a with
    | ⟨0, _⟩ => rfl
    | ⟨1, _⟩ => exact (if_neg hC).symm
  · refine shapeCast_apply v h (ix2 (0 : Fin 1) q) (ix1 q) ?_
    rw [Shape.rowMajor_val_one, Shape.rowMajor_val_two]
    show q.val = (0 : Nat) * C + q.val
    omega

/-- Both matrix products are plain row-by-column products. -/
theorem dot1_plain : PlainDot.IsPlain dot_S1024x256_S256x256_S1024x256_1_0_0_1_n_n := ⟨rfl, rfl, rfl, rfl, rfl, rfl⟩
theorem dot2_plain : PlainDot.IsPlain dot_S1024x256_S256x128_S1024x128_1_0_0_1_n_n := ⟨rfl, rfl, rfl, rfl, rfl, rfl⟩

/-- One layer read at (p, q): the product into zero, plus the bias row repeated down the rows, positive part. -/
theorem layer_apply {R K C : Nat} (d : DotDims ⟨2, ![R, K]⟩ ⟨2, ![K, C]⟩ ⟨2, ![R, C]⟩) (hd : PlainDot.IsPlain d)
    (l : FVec Ideal ⟨2, ![R, K]⟩ .bf16) (r : FVec Ideal ⟨2, ![K, C]⟩ .bf16) (b : FVec Ideal ⟨1, ![C]⟩ .f32)
    (hc : (⟨1, ![C]⟩ : Shape).ShapeCasts ⟨2, ![1, C]⟩) (hb : (⟨2, ![1, C]⟩ : Shape).Broadcasts ⟨2, ![R, C]⟩) (hC : C ≠ 1)
    (p : Fin R) (q : Fin C) :
    maximumf (addf (matmul d none l r (constant (F := Ideal) ⟨2, ![R, C]⟩ .f32 0x00000000#32))
        (broadcastTo ⟨2, ![R, C]⟩ (shapeCast ⟨2, ![1, C]⟩ b hc) hb))
      (broadcast ⟨2, ![R, C]⟩ (Scalar.ofBits (F := Ideal) .f32 0x00000000#32)) (ix2 p q)
    = max ((∑ k : Fin K, l (ix2 p k) * r (ix2 k q)) + b (ix1 q)) Cert.Sim.z := by
  rw [maximumf_apply, addf_apply, broadcast_apply, row_bcast b hc hb hC p q]
  refine congrArg₂ max (congrArg (· + b (ix1 q)) ?_) rfl
  exact PlainDot.matmul_zero_apply hd none l r p q

/-- The body's stored value, entry by entry. -/
theorem pay_apply (x : Vec Ideal S1x1024x256 .f32) (w1 : Vec Ideal S256x256 .f32) (b1 : Vec Ideal S256 .f32) (w2 : Vec Ideal S256x128 .f32) (b2 : Vec Ideal S128 .f32)
    (n : Fin 1024) (j : Fin 128) :
    k0_pay1 (F := Ideal) x w1 b1 w2 b2 (ix3 (0 : Fin 1) n j) = Cert.Sim.proj (fun n k => x (ix3 (0 : Fin 1) n k)) w1 b1 w2 b2 n j := by
  unfold k0_pay1
  refine (cast_add _ _ n j).trans ?_
  rw [truncf_apply]
  refine (layer_apply _ dot2_plain _ _ b2 _ _ (by decide) n j).trans ?_
  unfold Cert.Sim.proj
  refine congrArg₂ max (congrArg (· + b2 (ix1 j)) (Finset.sum_congr rfl fun k _ => ?_)) rfl
  rw [truncf_apply, truncf_apply]
  refine congrArg (· * w2 (ix2 k j)) ?_
  refine (layer_apply _ dot1_plain _ _ b1 _ _ (by decide) n k).trans ?_
  refine congrArg₂ max (congrArg (· + b1 (ix1 k)) (Finset.sum_congr rfl fun c _ => ?_)) rfl
  rw [truncf_apply, truncf_apply, cast_drop]

/-- Every rectangle of the body is a whole block at offset zero: the stored block is the stored value itself. -/
theorem outBlk_eq (x : Vec Ideal S1x1024x256 .f32) (w1 : Vec Ideal S256x256 .f32) (b1 : Vec Ideal S256 .f32) (w2 : Vec Ideal S256x128 .f32) (b2 : Vec Ideal S128 .f32) :
    outBlk (F := Ideal) x w1 b1 w2 b2 = k0_pay1 x w1 b1 w2 b2 := by
  unfold outBlk
  rw [View.canon_unit_zero hz3, View.ld_unit_zero hz3, View.ld_unit_zero hz2, View.ld_unit_zero hz1, View.ld_unit_zero hz2, View.ld_unit_zero hz1]

/-- The body's stored block, entry by entry: the perceptron of the loaded row block. -/
theorem outBlk_apply (x : Vec Ideal S1x1024x256 .f32) (w1 : Vec Ideal S256x256 .f32) (b1 : Vec Ideal S256 .f32) (w2 : Vec Ideal S256x128 .f32) (b2 : Vec Ideal S128 .f32)
    (n : Fin 1024) (j : Fin 128) :
    outBlk (F := Ideal) x w1 b1 w2 b2 (ix3 (0 : Fin 1) n j) = Cert.Sim.proj (fun n k => x (ix3 (0 : Fin 1) n k)) w1 b1 w2 b2 n j := by
  rw [outBlk_eq]
  exact pay_apply x w1 b1 w2 b2 n j

/-- One entry of a stored block is the entry of the stacked result at the place the block sits: the loaded rows are
    the rows of row set `i 0`, and the entry's row and column inside the block are `i 1` and `i 2`. -/
theorem point_eq (X : Vec Ideal S2x1024x256 .f32) (w1 : Vec Ideal S256x256 .f32) (b1 : Vec Ideal S256 .f32) (w2 : Vec Ideal S256x128 .f32) (b2 : Vec Ideal S128 .f32)
    (x : Vec Ideal S1x1024x256 .f32) (y : S1x1024x128.Idx) (i : S2x1024x128.Idx)
    (hx : ∀ (n : Fin 1024) (k : Fin 256), x (ix3 (0 : Fin 1) n k) = X (ix3 (⟨(i 0).val, (i 0).isLt⟩ : Fin 2) n k))
    (h1 : (i 1).val = (y 1).val) (h2 : (i 2).val = (y 2).val) :
    outBlk (F := Ideal) x w1 b1 w2 b2 y = projArr X w1 b1 w2 b2 i := by
  have hy : y = ix3 (0 : Fin 1) (⟨(i 1).val, (i 1).isLt⟩ : Fin 1024) (⟨(i 2).val, (i 2).isLt⟩ : Fin 128) := by
    funext a; apply Fin.ext
    match a with
    | ⟨0, _⟩ => have h : (y 0).val < 1 := (y 0).isLt; show (y 0).val = 0; omega
    | ⟨1, _⟩ => exact h1.symm
    | ⟨2, _⟩ => exact h2.symm
  have hX : (fun (n : Fin 1024) (k : Fin 256) => x (ix3 (0 : Fin 1) n k)) = fun n k => X (ix3 (⟨(i 0).val, (i 0).isLt⟩ : Fin 2) n k) :=
    funext fun n => funext fun k => hx n k
  rw [hy, outBlk_apply, hX]
  rfl

/-- The windows' index maps over the two grid points: the stacked input's and the stacked output's blocks are at block
    row `t`, all else at block index zero. -/
theorem idx_facts : ∀ t : Fin cfg0.N,
    win0_5.index t (0 : Fin 3) = t.val ∧ win0_5.index t (1 : Fin 3) = 0 ∧ win0_5.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

section
variable (V : (c : Dev nD) → (b : Ref sig .tc) → Buf (Elt Ideal) ((c : Thread nD τ).loc b))

/-- The four parameter windows hold their whole arrays at every point. -/
theorem blk_1 (c : Dev nD) (t : Fin cfg0.N) : blk (F := Ideal) V c 1 t = V c main_arg3 := by
  obtain ⟨-, -, -, -, -, -, e0, e1, -⟩ := idx_facts t
  funext y
  show V c main_arg3 (((cfg0.win 1).blk t).view.emb y) = V c main_arg3 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega
theorem blk_2 (c : Dev nD) (t : Fin cfg0.N) : blk (F := Ideal) V c 2 t = V c main_arg4 := by
  obtain ⟨-, -, -, -, -, -, -, -, e0, -⟩ := idx_facts t
  funext y
  show V c main_arg4 (((cfg0.win 2).blk t).view.emb y) = V c main_arg4 y
  refine congrArg _ (funext fun a => Fin.ext ?_)
  match a with
  | ⟨0, _⟩ => show win0_2.index t (0 : Fin 1) * 256 + 1 * (y 0).val = (y 0).val; omega
theorem blk_3 (c : Dev nD) (t : Fin cfg0.N) : blk (F := Ideal) V c 3 t = V c main_arg5 := by
  obtain ⟨-, -, -, -, -, -, -, -, -, e0, e1, -⟩ := idx_facts t
  funext y
  show V c main_arg5 (((cfg0.win 3).blk t).view.emb y) = V c main_arg5 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega
theorem blk_4 (c : Dev nD) (t : Fin cfg0.N) : blk (F := Ideal) V c 4 t = V c main_arg6 := by
  obtain ⟨-, -, -, -, -, -, -, -, -, -, -, e0⟩ := idx_facts t
  funext y
  show V c main_arg6 (((cfg0.win 4).blk t).view.emb y) = V c main_arg6 y
  refine congrArg _ (funext fun a => Fin.ext ?_)
  match a with
  | ⟨0, _⟩ => show win0_4.index t (0 : Fin 1) * 128 + 1 * (y 0).val = (y 0).val; omega

/-- What point `t` writes back is block `t` of `projArr` of the arrays as the call finds them. -/
theorem flushed_eq (c : Dev nD) (t : Fin cfg0.N) :
    (dat (F := Ideal) V c).flushed 5 t
      = ((cfg0.win 5).blk t).view.read (Elt Ideal) (projArr (V c main_v55) (V c main_arg3) (V c main_arg4) (V c main_arg5) (V c main_arg6)) := by
  show (cfg0.win 5).cut (grid0.coords t) ((dat V c).after 5 t) = _
  rw [after_5, blk_1, blk_2, blk_3, blk_4]
  obtain ⟨o0, o1, o2, x0, x1, x2, -⟩ := idx_facts t
  funext y
  show outBlk (blk V c 0 t) (V c main_arg3) (V c main_arg4) (V c main_arg5) (V c main_arg6) ((cfg0.win 5).xinj (grid0.coords t) y)
    = projArr (V c main_v55) (V c main_arg3) (V c main_arg4) (V c main_arg5) (V c main_arg6) (((cfg0.win 5).blk t).view.emb y)
  have hy0 : (y 0).val < 1 := (y 0).isLt
  refine point_eq _ _ _ _ _ (blk V c 0 t) _ _ (fun n k => ?_) ?_ ?_
  · show V c main_v55 (((cfg0.win 0).blk t).view.emb (ix3 (0 : Fin 1) n k)) = V c main_v55 _
    refine congrArg _ (funext fun a => Fin.ext ?_)
    match a with
    | ⟨0, _⟩ => show win0_0.index t (0 : Fin 3) * 1 + 1 * 0 = win0_5.index t (0 : Fin 3) * 1 + 1 * (y 0).val; omega
    | ⟨1, _⟩ => show win0_0.index t (1 : Fin 3) * 1024 + 1 * n.val = n.val; omega
    | ⟨2, _⟩ => show win0_0.index t (2 : Fin 3) * 256 + 1 * k.val = k.val; omega
  · show win0_5.index t (1 : Fin 3) * 1024 + 1 * (y 1).val = (y 1).val; omega
  · show win0_5.index t (2 : Fin 3) * 128 + 1 * (y 2).val = (y 2).val; omega

end

/-- The output array after the call's two points is `projArr` of the arrays the call was entered with. -/
theorem arr_eq (V : (c : Dev nD) → (b : Ref sig .tc) → Buf (Elt Ideal) ((c : Thread nD τ).loc b)) (c : Dev nD) :
    (dat (F := Ideal) V c).arrAt 5 cfg0.N = projArr (V c main_v55) (V c main_arg3) (V c main_arg4) (V c main_arg5) (V c main_arg6) := by
  refine (dat V c).arrAt_eq_of_cover 5 _ (fun t _ => flushed_eq V c t) fun i => ?_
  have hi0 : (i 0).val < 2 := (i 0).isLt
  have hi1 : (i 1).val < 1024 := (i 1).isLt
  have hi2 : (i 2).val < 128 := (i 2).isLt
  obtain ⟨t, ht⟩ : ∃ t : Fin cfg0.N, t.val = (i 0).val := ⟨⟨(i 0).val, by rw [show cfg0.N = 2 from N_0]; exact hi0⟩, rfl⟩
  obtain ⟨o0, o1, o2, -⟩ := idx_facts t
  refine ⟨t, flush0_5 t, ?_⟩
  show i ∈ ((View.whole main_v56).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 128 ≤ (i 2).val ∧ (i 2).val < win0_5.index t (2 : Fin 3) * 128 + 128; omega

end Cert.KernelIdeal.Proj

end
-- ==== Proof.PairValue.lean ====
/-
  The pairwise call's result array on the extended reals: entry (m, n) is the similarity `Sim.sim` of row m of the
  first feature matrix and row n of the second.
-/
import proofs.«177041_j7370163880501_1_alg».proof.Proof.PairCall
import proofs.«177041_j7370163880501_1_alg».proof.Proof.Spec
import proofs.«177041_j7370163880501_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pair

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The result as one function of the two feature matrices and the four parameter arrays. -/
def simArr (f1 f2 : Vec Ideal S1024x128 .bf16) (w3 : Vec Ideal S128x32 .f32) (b3 : Vec Ideal S32 .f32) (w4 : Vec Ideal S32 .f32) (b4 : Vec Ideal S1 .f32) :
    Vec Ideal S1024x1024 .f32 := fun i =>
  Cert.Sim.sim (fun r d => f1 (ix2 r d)) (fun r d => f2 (ix2 r d)) w3 b3 (fun k => w4 (ix1 k)) (b4 (ix1 (0 : Fin 1)))
    ⟨(i 0).val, (i 0).isLt⟩ ⟨(i 1).val, (i 1).isLt⟩

/-- The zero offsets of a rank-2 rectangle, spelt as a constant function. -/
theorem hz2 : (![0, 0] : Fin 2 → Nat) = fun _ => 0 := funext fun a => by
  match a with | ⟨0, _⟩ => rfl | ⟨1, _⟩ => rfl
/-- The zero offset of a rank-1 rectangle, spelt as a constant function. -/
theorem hz1 : (![0] : Fin 1 → Nat) = fun _ => 0 := funext fun a => by
  match a with | ⟨0, _⟩ => rfl

section Layout
variable {α : Type}

/-- The one-element bias, viewed [1, 1] and spread over the tile, reads its element everywhere. -/
theorem bias_apply (v : S1.Idx → α) (h1 : S1.ShapeCasts S1x1) (h2 : S1x1.Broadcasts S256x128) (p : Fin 256) (q : Fin 128) :
    broadcastTo S256x128 (shapeCast S1x1 v h1) h2 (ix2 p q) = v (ix1 (0 : Fin 1)) := by
  refine (broadcastTo_apply _ h2 (ix2 p q) (ix2 (0 : Fin 1) (0 : Fin 1)) fun a => ?_).trans ?_
  · match a with
    | ⟨0, _⟩ => rfl
    | ⟨1, _⟩ => rfl
  · exact shapeCast_a_1a_apply v h1 0 0

/-- The 32-vector of output weights, viewed [1, 1, 32] and spread over the tile, reads entry k at (p, q, k). -/
theorem wvec_apply (v : S32.Idx → α) (h0 : S32.ShapeCasts S32) (h1 : S32.ShapeCasts S1x1x32) (h2 : S1x1x32.Broadcasts S256x128x32)
    (p : Fin 256) (q : Fin 128) (k : Fin 32) :
    broadcastTo S256x128x32 (shapeCast S1x1x32 (shapeCast S32 v h0) h1) h2 (ix3 p q k) = v (ix1 k) := by
  rw [shapeCast_self]
  refine (broadcastTo_apply _ h2 (ix3 p q k) (ix3 (0 : Fin 1) (0 : Fin 1) k) fun a => ?_).trans ?_
  · match a with
    | ⟨0, _⟩ => rfl
    | ⟨1, _⟩ => rfl
    | ⟨2, _⟩ => rfl
  · refine shapeCast_apply v h1 _ (ix1 k) ?_
    rw [Shape.rowMajor_val_three, Shape.rowMajor_val_one]
    show k.val = (0 * 1 + 0) * 32 + k.val
    omega

/-- The [32768, 32] array viewed [256, 128, 32]: entry (p, q, k) is row p·128 + q, column k. -/
theorem rows_apply (v : S32768x32.Idx → α) (h : S32768x32.ShapeCasts S256x128x32) (p : Fin 256) (q : Fin 128) (k : Fin 32) :
    shapeCast S256x128x32 v h (ix3 p q k) = v (ix2 (⟨p.val * 128 + q.val, by omega⟩ : Fin 32768) k) := by
  refine shapeCast_apply v h _ _ ?_
  rw [Shape.rowMajor_val_three, Shape.rowMajor_val_two]
  rfl

/-- The bias row [32], viewed [1, 32] and spread over the 32768 rows, reads entry k in every row. -/
theorem brow_apply (v : S32.Idx → α) (h1 : S32.ShapeCasts S1x32) (h2 : S1x32.Broadcasts S32768x32) (r : Fin 32768) (k : Fin 32) :
    broadcastTo S32768x32 (shapeCast S1x32 v h1) h2 (ix2 r k) = v (ix1 k) :=
  (broadcastTo_1b_ab_apply _ h2 r k).trans (shapeCast_a_1a_apply v h1 0 k)

/-- The pairwise differences: the first block viewed [256, 1, 128], the second [1, 128, 128], both spread to
    [256, 128, 128] and laid out as 32768 rows; row p·128 + q pairs row p of the first with row q of the second. -/
theorem first_apply (v : S256x128.Idx → α) (h0 : S256x128.ShapeCasts S256x128) (h1 : S256x128.ShapeCasts S256x1x128)
    (h2 : S256x1x128.Broadcasts S256x128x128) (p : Fin 256) (q : Fin 128) (d : Fin 128) :
    broadcastTo S256x128x128 (shapeCast S256x1x128 (shapeCast S256x128 v h0) h1) h2 (ix3 p q d) = v (ix2 p d) := by
  rw [shapeCast_self]
  refine (broadcastTo_apply _ h2 (ix3 p q d) (ix3 p (0 : Fin 1) d) fun a => ?_).trans ?_
  · match a with
    | ⟨0, _⟩ => rfl
    | ⟨1, _⟩ => rfl
    | ⟨2, _⟩ => rfl
  · refine shapeCast_apply v h1 _ (ix2 p d) ?_
    rw [Shape.rowMajor_val_three, Shape.rowMajor_val_two]
    show p.val * 128 + d.val = (p.val * 1 + 0) * 128 + d.val
    omega

theorem second_apply (v : S128x128.Idx → α) (h0 : S128x128.ShapeCasts S128x128) (h1 : S128x128.ShapeCasts S1x128x128)
    (h2 : S1x128x128.Broadcasts S256x128x128) (p : Fin 256) (q : Fin 128) (d : Fin 128) :
    broadcastTo S256x128x128 (shapeCast S1x128x128 (shapeCast S128x128 v h0) h1) h2 (ix3 p q d) = v (ix2 q d) := by
  rw [shapeCast_self]
  refine (broadcastTo_apply _ h2 (ix3 p q d) (ix3 (0 : Fin 1) q d) fun a => ?_).trans ?_
  · match a with
    | ⟨0, _⟩ => rfl
    | ⟨1, _⟩ => rfl
    | ⟨2, _⟩ => rfl
  · exact shapeCast_ab_1ab_apply v h1 0 q d

/-- The [256, 128, 128] array laid out as 32768 rows: row p·128 + q, column d is entry (p, q, d). -/
theorem flat_apply (v : S256x128x128.Idx → α) (h : S256x128x128.ShapeCasts S32768x128) (p : Fin 256) (q : Fin 128) (d : Fin 128) :
    shapeCast S32768x128 v h (ix2 (⟨p.val * 128 + q.val, by omega⟩ : Fin 32768) d) = v (ix3 p q d) := by
  refine shapeCast_apply v h _ _ ?_
  rw [Shape.rowMajor_val_three, Shape.rowMajor_val_two]
  rfl

end Layout

/-- The lane sum over the last axis of a [256, 128, 32] array, read at (p, q): the sum over k of entry (p, q, k). -/
theorem red_apply (v : FVec Ideal S256x128x32 .f32) (h : S256x128x32.Reduces [2] S256x128) (hφ : FKind.Formats .f32)
    (hacc : (0x00000000#32 : BitVec 32) = FKind.add.neutral .f32 hφ) (p : Fin 256) (q : Fin 128) :
    multiReduction (F := Ideal) .add [2] S256x128 v 0x00000000#32 h hφ hacc (ix2 p q) = ∑ k : Fin 32, v (ix3 p q k) := by
  refine (Ideal.multiReduction_add_single v 0x00000000#32 h hφ hacc (ix2 p q)).trans ?_
  refine Finset.sum_congr rfl fun k _ => congrArg v ?_
  funext a
  apply Fin.ext
  match a with
  | ⟨0, _⟩ => rfl
  | ⟨1, _⟩ => rfl
  | ⟨2, _⟩ => rfl

set_option maxHeartbeats 400000 in
/-- The body's stored value at (p, q), operation by operation. -/
theorem pay_apply (v0 : Vec Ideal S256x128 .bf16) (v2 : Vec Ideal S128x128 .bf16) (v10 : Vec Ideal S128x32 .f32) (v13 : Vec Ideal S32 .f32)
    (v20 : Vec Ideal S32 .f32) (v26 : Vec Ideal S1 .f32) (p : Fin 256) (q : Fin 128) :
    k1_pay1 (F := Ideal) v0 v2 v10 v13 v20 v26 (ix2 p q)
      = (∑ k : Fin 32, max ((∑ d : Fin 128, (v0 (ix2 p d) - v2 (ix2 q d)) * v10 (ix2 d k)) + v13 (ix1 k)) Cert.Sim.z * v20 (ix1 k)) + v26 (ix1 (0 : Fin 1)) := by
  unfold k1_pay1
  refine congrArg₂ (· + ·) ?_ (bias_apply _ _ _ p q)
  refine (red_apply _ _ _ _ p q).trans (Finset.sum_congr rfl fun k _ => ?_)
  refine congrArg₂ (· * ·) ?_ (wvec_apply _ _ _ _ p q k)
  refine (rows_apply _ _ p q k).trans ?_
  refine congrArg₂ max ?_ rfl
  refine congrArg₂ (· + ·) ?_ (brow_apply _ _ _ _ k)
  refine (PlainDot.matmul_zero_apply ⟨rfl, rfl, rfl, rfl, rfl, rfl⟩ none _ _ _ k).trans (Finset.sum_congr rfl fun d _ => ?_)
  refine congrArg₂ (· * ·) ?_ rfl
  refine (flat_apply _ _ p q d).trans ?_
  exact congrArg₂ (· - ·) (first_apply _ _ _ _ p q d) (second_apply _ _ _ _ p q d)

/-- The body's stored tile, entry by entry: the similarity of row p of the first block and row q of the second. -/
theorem outBlk_apply (f1 : Vec Ideal S256x128 .bf16) (f2 : Vec Ideal S128x128 .bf16) (w3 : Vec Ideal S128x32 .f32) (b3 : Vec Ideal S32 .f32) (w4 : Vec Ideal S32 .f32) (b4 : Vec Ideal S1 .f32)
    (p : Fin 256) (q : Fin 128) :
    outBlk (F := Ideal) f1 f2 w3 b3 w4 b4 (ix2 p q)
      = (∑ k : Fin 32, max ((∑ d : Fin 128, (f1 (ix2 p d) - f2 (ix2 q d)) * w3 (ix2 d k)) + b3 (ix1 k)) Cert.Sim.z * w4 (ix1 k)) + b4 (ix1 (0 : Fin 1)) := by
  unfold outBlk
  rw [View.canon_unit_zero hz2]
  simp only [View.ld_unit_zero (S := S256x128) hz2, View.ld_unit_zero (S := S128x128) hz2, View.ld_unit_zero (S := S128x32) hz2,
    View.ld_unit_zero (S := S32) hz1, View.ld_unit_zero (S := S1) hz1]
  exact pay_apply f1 f2 w3 b3 w4 b4 p q

section Array

variable (V : (c : Dev nD) → (b : Ref sig .tc) → Buf (Elt Ideal) ((c : Thread nD τ).loc b))

/-- The printed index maps over the grid's thirty-two points: point t is tile row t / 8, tile column t % 8; the
    first feature matrix moves with the tile row, the second with the tile column, the parameters stay. -/
theorem idx_facts : ∀ t : Fin cfg1.N,
    win1_6.index t (0 : Fin 2) = t.val / 8 ∧ win1_6.index t (1 : Fin 2) = t.val % 8
    ∧ win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 1) = 0 ∧ win1_4.index t (0 : Fin 1) = 0 ∧ win1_5.index t (0 : Fin 1) = 0 :=
  (by decide +kernel : ∀ t : Fin grid1.N, _)

/-- The first feature matrix's block at point t: rows 256·(t / 8) onwards. -/
theorem blk0_apply (c : Dev nD) (t : Fin cfg1.N) (p : Fin 256) (d : Fin 128) (r : Fin 1024) (hr : r.val = t.val / 8 * 256 + p.val) :
    (blk V c 0 t : Vec Ideal S256x128 .bf16) (ix2 p d) = (V c main_v58 : S1024x128.Idx → EReal) (ix2 r d) := by
  obtain ⟨-, -, e0, e1, -⟩ := idx_facts t
  show V c main_v58 (((cfg1.win 0).blk t).view.emb (ix2 p d)) = V c main_v58 (ix2 r d)
  congr 1
  funext a; apply Fin.ext
  match a with
  | ⟨0, _⟩ => show win1_0.index t (0 : Fin 2) * 256 + 1 * p.val = r.val; omega
  | ⟨1, _⟩ => show win1_0.index t (1 : Fin 2) * 128 + 1 * d.val = d.val; omega

/-- The second feature matrix's block at point t: rows 128·(t % 8) onwards. -/
theorem blk1_apply (c : Dev nD) (t : Fin cfg1.N) (q : Fin 128) (d : Fin 128) (r : Fin 1024) (hr : r.val = t.val % 8 * 128 + q.val) :
    (blk V c 1 t : Vec Ideal S128x128 .bf16) (ix2 q d) = (V c main_v60 : S1024x128.Idx → EReal) (ix2 r d) := by
  obtain ⟨-, -, -, -, e0, e1, -⟩ := idx_facts t
  show V c main_v60 (((cfg1.win 1).blk t).view.emb (ix2 q d)) = V c main_v60 (ix2 r d)
  congr 1
  funext a; apply Fin.ext
  match a with
  | ⟨0, _⟩ => show win1_1.index t (0 : Fin 2) * 128 + 1 * q.val = r.val; omega
  | ⟨1, _⟩ => show win1_1.index t (1 : Fin 2) * 128 + 1 * d.val = d.val; omega

/-- The four parameter arrays are read whole at every point. -/
theorem blk2_apply (c : Dev nD) (t : Fin cfg1.N) (d : Fin 128) (k : Fin 32) :
    (blk V c 2 t : Vec Ideal S128x32 .f32) (ix2 d k) = (V c main_arg7 : S128x32.Idx → EReal) (ix2 d k) := by
  obtain ⟨-, -, -, -, -, -, e0, e1, -⟩ := idx_facts t
  show V c main_arg7 (((cfg1.win 2).blk t).view.emb (ix2 d k)) = V c main_arg7 (ix2 d k)
  congr 1
  funext a; apply Fin.ext
  match a with
  | ⟨0, _⟩ => show win1_2.index t (0 : Fin 2) * 128 + 1 * d.val = d.val; omega
  | ⟨1, _⟩ => show win1_2.index t (1 : Fin 2) * 32 + 1 * k.val = k.val; omega

theorem blk3_apply (c : Dev nD) (t : Fin cfg1.N) (k : Fin 32) :
    (blk V c 3 t : Vec Ideal S32 .f32) (ix1 k) = (V c main_arg8 : S32.Idx → EReal) (ix1 k) := by
  obtain ⟨-, -, -, -, -, -, -, -, e0, -⟩ := idx_facts t
  show V c main_arg8 (((cfg1.win 3).blk t).view.emb (ix1 k)) = V c main_arg8 (ix1 k)
  congr 1
  funext a; apply Fin.ext
  match a with
  | ⟨0, _⟩ => show win1_3.index t (0 : Fin 1) * 32 + 1 * k.val = k.val; omega

theorem blk4_apply (c : Dev nD) (t : Fin cfg1.N) (k : Fin 32) :
    (blk V c 4 t : Vec Ideal S32 .f32) (ix1 k) = (V c main_v61 : S32.Idx → EReal) (ix1 k) := by
  obtain ⟨-, -, -, -, -, -, -, -, -, e0, -⟩ := idx_facts t
  show V c main_v61 (((cfg1.win 4).blk t).view.emb (ix1 k)) = V c main_v61 (ix1 k)
  congr 1
  funext a; apply Fin.ext
  match a with
  | ⟨0, _⟩ => show win1_4.index t (0 : Fin 1) * 32 + 1 * k.val = k.val; omega

theorem blk5_apply (c : Dev nD) (t : Fin cfg1.N) (k : Fin 1) :
    (blk V c 5 t : Vec Ideal S1 .f32) (ix1 k) = (V c main_arg10 : S1.Idx → EReal) (ix1 k) := by
  obtain ⟨-, -, -, -, -, -, -, -, -, -, e0⟩ := idx_facts t
  show V c main_arg10 (((cfg1.win 5).blk t).view.emb (ix1 k)) = V c main_arg10 (ix1 k)
  congr 1
  funext a; apply Fin.ext
  match a with
  | ⟨0, _⟩ => show win1_5.index t (0 : Fin 1) * 1 + 1 * k.val = k.val; omega

end Array

section Array2

variable (V : (c : Dev nD) → (b : Ref sig .tc) → Buf (Elt Ideal) ((c : Thread nD τ).loc b))

/-- An index of the result is in point t's tile iff each coordinate is in the tile's range on its axis. -/
theorem mem_blk (t : Fin cfg1.N) (i : S1024x1024.Idx) :
    i ∈ ((cfg1.win 6).blk t).view.set ↔ ∀ a : Fin 2, win1_6.index t a * S256x128.size a ≤ (i a).val ∧ (i a).val < win1_6.index t a * S256x128.size a + S256x128.size a := by
  show i ∈ ((View.whole main_v62).slice (win1_6.rect t)).set ↔ _
  rw [View.set_slice_whole, Rect.mem_set_unit]
  exact Iff.rfl

/-- What point t writes back is tile t of the similarity array of the call's arrays. -/
theorem flushed_eq (c : Dev nD) (t : Fin cfg1.N) :
    (dat (F := Ideal) V c).flushed 6 t = ((cfg1.win 6).blk t).view.read (Elt Ideal)
      (simArr (V c main_v58) (V c main_v60) (V c main_arg7) (V c main_arg8) (V c main_v61) (V c main_arg10)) := by
  show (cfg1.win 6).cut (grid1.coords t) ((dat V c).after 6 t) = _
  rw [after_6]
  obtain ⟨e0, e1, -⟩ := idx_facts t
  funext j
  have h0 : (j 0).val < 256 := (j 0).isLt
  have h1 : (j 1).val < 128 := (j 1).isLt
  have hj : (win1_6.xinj (grid1.coords t) j : S256x128.Idx) = ix2 (⟨(j 0).val, h0⟩ : Fin 256) (⟨(j 1).val, h1⟩ : Fin 128) :=
    funext fun a => by match a with | ⟨0, _⟩ => rfl | ⟨1, _⟩ => rfl
  show outBlk (blk V c 0 t) (blk V c 1 t) (blk V c 2 t) (blk V c 3 t) (blk V c 4 t) (blk V c 5 t) (win1_6.xinj (grid1.coords t) j)
      = simArr (V c main_v58) (V c main_v60) (V c main_arg7) (V c main_arg8) (V c main_v61) (V c main_arg10) (((cfg1.win 6).blk t).view.emb j)
  rw [hj, outBlk_apply]
  unfold simArr Cert.Sim.sim
  refine congrArg₂ (· + ·) (Finset.sum_congr rfl fun k _ => ?_) (blk5_apply V c t 0)
  refine congrArg₂ (· * ·) (congrArg₂ max (congrArg₂ (· + ·) (Finset.sum_congr rfl fun d _ => ?_) (blk3_apply V c t k)) rfl) (blk4_apply V c t k)
  refine congrArg₂ (· * ·) (congrArg₂ (· - ·) (blk0_apply V c t _ d _ ?_) (blk1_apply V c t _ d _ ?_)) (blk2_apply V c t d k)
  · show win1_6.index t (0 : Fin 2) * 256 + 1 * (j 0).val = t.val / 8 * 256 + (j 0).val
    omega
  · show win1_6.index t (1 : Fin 2) * 128 + 1 * (j 1).val = t.val % 8 * 128 + (j 1).val
    omega

/-- Every entry (r, s) of the result lies in the tile of point 8·(r / 256) + s / 128. -/
theorem cover (i : S1024x1024.Idx) : ∃ t : Fin cfg1.N, (cfg1.win 6).flush t = true ∧ i ∈ ((cfg1.win 6).blk t).view.set := by
  have hi0 : (i 0).val < 1024 := (i 0).isLt
  have hi1 : (i 1).val < 1024 := (i 1).isLt
  have hN : cfg1.N = 32 := N_1
  have ht : 8 * ((i 0).val / 256) + (i 1).val / 128 < cfg1.N := by rw [hN]; omega
  obtain ⟨e0, e1, -⟩ := idx_facts ⟨8 * ((i 0).val / 256) + (i 1).val / 128, ht⟩
  refine ⟨⟨8 * ((i 0).val / 256) + (i 1).val / 128, ht⟩, flush1_6 _, ?_⟩
  rw [mem_blk]
  intro a
  match a with
  | ⟨0, _⟩ =>
    show win1_6.index ⟨8 * ((i 0).val / 256) + (i 1).val / 128, ht⟩ (0 : Fin 2) * 256 ≤ (i 0).val
      ∧ (i 0).val < win1_6.index ⟨8 * ((i 0).val / 256) + (i 1).val / 128, ht⟩ (0 : Fin 2) * 256 + 256
    rw [e0]
    show (8 * ((i 0).val / 256) + (i 1).val / 128) / 8 * 256 ≤ (i 0).val ∧ (i 0).val < (8 * ((i 0).val / 256) + (i 1).val / 128) / 8 * 256 + 256
    omega
  | ⟨1, _⟩ =>
    show win1_6.index ⟨8 * ((i 0).val / 256) + (i 1).val / 128, ht⟩ (1 : Fin 2) * 128 ≤ (i 1).val
      ∧ (i 1).val < win1_6.index ⟨8 * ((i 0).val / 256) + (i 1).val / 128, ht⟩ (1 : Fin 2) * 128 + 128
    rw [e1]
    show (8 * ((i 0).val / 256) + (i 1).val / 128) % 8 * 128 ≤ (i 1).val ∧ (i 1).val < (8 * ((i 0).val / 256) + (i 1).val / 128) % 8 * 128 + 128
    omega

end Array2

/-- The output array after the call's thirty-two points is `simArr` of the arrays the call was entered with. -/
theorem arr_eq (V : (c : Dev nD) → (b : Ref sig .tc) → Buf (Elt Ideal) ((c : Thread nD τ).loc b)) (c : Dev nD) :
    (dat (F := Ideal) V c).arrAt 6 cfg1.N = simArr (V c main_v58) (V c main_v60) (V c main_arg7) (V c main_arg8) (V c main_v61) (V c main_arg10) :=
  (dat (F := Ideal) V c).arrAt_eq_of_cover 6 (simArr (V c main_v58) (V c main_v60) (V c main_arg7) (V c main_arg8) (V c main_v61) (V c main_arg10))
    (fun t _ => flushed_eq V c t) cover

end Cert.KernelIdeal.Pair

end
-- ==== Proof.HostReads.lean ====
/-
  What the host operations around the two calls leave, read entry by entry on the extended reals: the stacked input
  of the projection call is the two gathered row sets one above the other; the two feature matrices of the pairwise
  call are the two halves of the projection's output; its weight vector is the one column of the last weight matrix.
  The gathered row sets are the same composed host terms the reference computes them by.
-/
import proofs.«177041_j7370163880501_1_alg».proof.Proof.MainRun
import proofs.«177041_j7370163880501_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The first gathered row set, as the reference's composed term of the feature array and the first index array. -/
abbrev rows1 (c : Dev nD) : Vec Ideal S1024x256 .f32 :=
  Cert.ReferenceIdeal.Read.val_main_v26 (F := Ideal) (m ((c.tc : Thread nD τ).loc main_arg0)) (m ((c.tc : Thread nD τ).loc main_arg1))
/-- The second gathered row set, of the feature array and the second index array. -/
abbrev rows2 (c : Dev nD) : Vec Ideal S1024x256 .f32 :=
  Cert.ReferenceIdeal.Read.val_main_v62 (F := Ideal) (m ((c.tc : Thread nD τ).loc main_arg0)) (m ((c.tc : Thread nD τ).loc main_arg2))

/-- Two blocks stacked along the leading axis, as a function of the two blocks. -/
private def cat2 (a b : (⟨S1x1024x256, .f32⟩ : BufTy).Contents (Elt Ideal)) : (⟨S2x1024x256, .f32⟩ : BufTy).Contents (Elt Ideal) :=
  concatenate S2x1024x256 0 [⟨S1x1024x256, a⟩, ⟨S1x1024x256, b⟩] concatenates_S1x1024x256_S1x1024x256_S2x1024x256_d0
/-- Three index columns laid side by side, as a function of the three columns. -/
private def cat3 (a b d : (⟨S1024x1, .i32⟩ : BufTy).Contents (Elt Ideal)) : (⟨S1024x3, .i32⟩ : BufTy).Contents (Elt Ideal) :=
  concatenate S1024x3 1 [⟨S1024x1, a⟩, ⟨S1024x1, b⟩, ⟨S1024x1, d⟩] concatenates_S1024x1_S1024x1_S1024x1_S1024x3_d1

/-- The first index matrix is its three columns side by side, each column's contents read at its own buffer. -/
private theorem result_v25 (G : Valuation τ sig (Elt Ideal)) :
    (StableHlo.nary (τ := τ) ![main_v22, main_v23, main_v24] main_v25 (fun u => concatenate S1024x3 1 [⟨S1024x1, u 0⟩, ⟨S1024x1, u 1⟩, ⟨S1024x1, u 2⟩] concatenates_S1024x1_S1024x1_S1024x1_S1024x3_d1)).result G (no_index (Proc.devRef .tc main_v25))
      = cat3 (G (Proc.devRef .tc main_v22)) (G (Proc.devRef .tc main_v23)) (G (Proc.devRef .tc main_v24)) := by
  rw [StableHlo.nary_result]; rfl

/-- The second index matrix likewise. -/
private theorem result_v51 (G : Valuation τ sig (Elt Ideal)) :
    (StableHlo.nary (τ := τ) ![main_v48, main_v49, main_v50] main_v51 (fun u => concatenate S1024x3 1 [⟨S1024x1, u 0⟩, ⟨S1024x1, u 1⟩, ⟨S1024x1, u 2⟩] concatenates_S1024x1_S1024x1_S1024x1_S1024x3_d1)).result G (no_index (Proc.devRef .tc main_v51))
      = cat3 (G (Proc.devRef .tc main_v48)) (G (Proc.devRef .tc main_v49)) (G (Proc.devRef .tc main_v50)) := by
  rw [StableHlo.nary_result]; rfl

/-- The stacked array is its two blocks, each block's contents read at its own buffer. -/
private theorem result_v55 (G : Valuation τ sig (Elt Ideal)) :
    (StableHlo.binary (τ := τ) main_v53 main_v54 main_v55 ((fun a b => concatenate S2x1024x256 0 [⟨S1x1024x256, a⟩, ⟨S1x1024x256, b⟩] concatenates_S1x1024x256_S1x1024x256_S2x1024x256_d0) : (⟨S1x1024x256, .f32⟩ : BufTy).Contents (Elt Ideal) → (⟨S1x1024x256, .f32⟩ : BufTy).Contents (Elt Ideal) → (⟨S2x1024x256, .f32⟩ : BufTy).Contents (Elt Ideal))).result G (Proc.devRef .tc main_v55)
      = cat2 (G (Proc.devRef .tc main_v53)) (G (Proc.devRef .tc main_v54)) := by
  rw [StableHlo.binary_result]; rfl

set_option maxHeartbeats 4000000 in
/-- The stacked input as a whole array: the two gathered row sets, each given a leading unit axis, one above the
    other. The first host stretch's fold at the stacked buffer composes, operation by operation, to the same term
    the reference's stage functions unfold to (same operations on the same launch arrays). -/
private theorem V1_v55_term (c : Dev nD) :
    (V1 (F := Ideal) m ρ c main_v55 : S2x1024x256.Idx → EReal)
      = cat2 (broadcastInDim S1x1024x256 ![1, 2] bcast_S1024x256_S1x1024x256_1_2 (rows1 m c))
          (broadcastInDim S1x1024x256 ![1, 2] bcast_S1024x256_S1x1024x256_1_2 (rows2 m c)) := by
  show StableHlo.after hostOps0 (W0 m ρ c) (Proc.devRef .tc main_v55) = _
  simp only [StableHlo.after_cons, StableHlo.after_nil]
  rw [result_v55]
  simp (disch := decide) only [
    StableHlo.nullary_result', StableHlo.unary_result', StableHlo.binary_result', StableHlo.ternary_result', StableHlo.reshape_result',
    result_v25, result_v51,
    StableHlo.nullary_result_ne', StableHlo.unary_result_ne', StableHlo.binary_result_ne', StableHlo.ternary_result_ne', StableHlo.reshape_result_ne',
    StableHlo.nary_result_ne']
  rfl

/-- The projection call's stacked input: block 0 is the first gathered row set, block 1 the second. -/
theorem V1_rows (c : Dev nD) (b : Fin 2) (n : Fin 1024) (k : Fin 256) :
    (V1 (F := Ideal) m ρ c main_v55 : S2x1024x256.Idx → EReal) (ix3 b n k)
      = if b = 0 then rows1 m c (ix2 n k) else rows2 m c (ix2 n k) := by
  rw [V1_v55_term]
  unfold cat2
  by_cases hb : b = 0
  · subst hb
    rw [if_pos rfl]
    refine (concatenate_pair_apply_left (t := S2x1024x256) (s₁ := S1x1024x256) (s₂ := S1x1024x256) 0 _ _ concatenates_S1x1024x256_S1x1024x256_S2x1024x256_d0
      (ix3 (0 : Fin 2) n k) rfl (ix3 (0 : Fin 1) n k) (fun a => match a with
        | ⟨0, _⟩ => rfl
        | ⟨1, _⟩ => rfl
        | ⟨2, _⟩ => rfl)).trans ?_
    exact broadcastInDim_apply _ bcast_S1024x256_S1x1024x256_1_2 _ _ (ix2 n k) (fun a => match a with
      | ⟨0, _⟩ => by show n.val = if (1024 : Nat) = 1 then 0 else n.val; rw [if_neg (by decide)]
      | ⟨1, _⟩ => by show k.val = if (256 : Nat) = 1 then 0 else k.val; rw [if_neg (by decide)])
  · have hb1 : b = 1 := Fin.ext (by
      have h2 : b.val < 2 := b.isLt
      have h0 : b.val ≠ 0 := fun h => hb (Fin.ext h)
      show b.val = 1
      omega)
    subst hb1
    rw [if_neg hb]
    refine (concatenate_pair_apply_right (t := S2x1024x256) (s₁ := S1x1024x256) (s₂ := S1x1024x256) 0 _ _ concatenates_S1x1024x256_S1x1024x256_S2x1024x256_d0
      (ix3 (1 : Fin 2) n k) rfl rfl (ix3 (0 : Fin 1) n k) (fun a => match a with
        | ⟨0, _⟩ => fun h => absurd rfl h
        | ⟨1, _⟩ => fun _ => rfl
        | ⟨2, _⟩ => fun _ => rfl) rfl).trans ?_
    exact broadcastInDim_apply _ bcast_S1024x256_S1x1024x256_1_2 _ _ (ix2 n k) (fun a => match a with
      | ⟨0, _⟩ => by show n.val = if (1024 : Nat) = 1 then 0 else n.val; rw [if_neg (by decide)]
      | ⟨1, _⟩ => by show k.val = if (256 : Nat) = 1 then 0 else k.val; rw [if_neg (by decide)])

/-- The pairwise call's first feature matrix is block 0 of the projection's output array, -/
theorem V3_f1 (c : Dev nD) (n : Fin 1024) (j : Fin 128) :
    (V3 (F := Ideal) m ρ c main_v58 : S1024x128.Idx → EReal) (ix2 n j)
      = (W2 (F := Ideal) m ρ c (Proc.devRef .tc main_v56) : S2x1024x128.Idx → EReal) (ix3 (0 : Fin 2) n j) := by
  have e : (V3 (F := Ideal) m ρ c main_v58 : S1024x128.Idx → EReal)
      = shapeCast S1024x128 (extractStridedSlice S1x1024x128 ![0, 0, 0] (W2 (F := Ideal) m ρ c (Proc.devRef .tc main_v56))
          slices_S2x1024x128_S1x1024x128_0_0_0) shapeCasts_S1x1024x128_S1024x128 := by
    show StableHlo.after hostOps1 _ (Proc.devRef .tc main_v58) = _
    after_results
    rfl
  rw [e, shapeCast_1ab_ab_apply]
  exact extractStridedSlice_apply ![0, 0, 0] _ slices_S2x1024x128_S1x1024x128_0_0_0 _ (ix3 (0 : Fin 2) n j) (fun a => match a with
    | ⟨0, _⟩ => rfl
    | ⟨1, _⟩ => by show n.val = 0 + n.val; omega
    | ⟨2, _⟩ => by show j.val = 0 + j.val; omega)

/-- its second feature matrix block 1, -/
theorem V3_f2 (c : Dev nD) (n : Fin 1024) (j : Fin 128) :
    (V3 (F := Ideal) m ρ c main_v60 : S1024x128.Idx → EReal) (ix2 n j)
      = (W2 (F := Ideal) m ρ c (Proc.devRef .tc main_v56) : S2x1024x128.Idx → EReal) (ix3 (1 : Fin 2) n j) := by
  have e : (V3 (F := Ideal) m ρ c main_v60 : S1024x128.Idx → EReal)
      = shapeCast S1024x128 (extractStridedSlice S1x1024x128 ![1, 0, 0] (W2 (F := Ideal) m ρ c (Proc.devRef .tc main_v56))
          slices_S2x1024x128_S1x1024x128_1_0_0) shapeCasts_S1x1024x128_S1024x128 := by
    show StableHlo.after hostOps1 _ (Proc.devRef .tc main_v60) = _
    after_results
    rfl
  rw [e, shapeCast_1ab_ab_apply]
  exact extractStridedSlice_apply ![1, 0, 0] _ slices_S2x1024x128_S1x1024x128_1_0_0 _ (ix3 (1 : Fin 2) n j) (fun a => match a with
    | ⟨0, _⟩ => rfl
    | ⟨1, _⟩ => by show n.val = 0 + n.val; omega
    | ⟨2, _⟩ => by show j.val = 0 + j.val; omega)

/-- and its weight vector the one column of the last weight matrix as launched. -/
theorem V3_w4 (c : Dev nD) (k : Fin 32) :
    (V3 (F := Ideal) m ρ c main_v61 : S32.Idx → EReal) (ix1 k)
      = (m ((c.tc : Thread nD τ).loc main_arg9) : S32x1.Idx → EReal) (ix2 k (0 : Fin 1)) := by
  have e : (V3 (F := Ideal) m ρ c main_v61 : S32.Idx → EReal)
      = shapeCast S32 (W2 (F := Ideal) m ρ c (Proc.devRef .tc main_arg9)) shapeCasts_S32x1_S32 := by
    show StableHlo.after hostOps1 _ (Proc.devRef .tc main_v61) = _
    after_results
    rfl
  rw [e, W2_of_ne m ρ c main_arg9 (by decide), W1_main_arg9]
  exact shapeCast_apply _ shapeCasts_S32x1_S32 _ (ix2 k (0 : Fin 1)) (by
    rw [Shape.rowMajor_val_two, Shape.rowMajor_val_one]
    show k.val * 1 + 0 = k.val
    omega)

end Cert.KernelIdeal.Whole

end
-- ==== Proof.KernelValue.lean ====
/-
  The kernel's result on the extended reals, entry by entry: the pairwise call's output array is the similarity of
  its two feature matrices; those are the two halves of the projection call's output, which is the perceptron of the
  two gathered row sets stacked; every parameter array is read back to its launch contents. Put together, entry
  (p, q) of the result is `Sim.out` of the two gathered row sets and the nine parameter arrays.
-/
import proofs.«177041_j7370163880501_1_alg».proof.Proof.MainRun
import proofs.«177041_j7370163880501_1_alg».proof.Proof.ProjValue
import proofs.«177041_j7370163880501_1_alg».proof.Proof.PairValue
import proofs.«177041_j7370163880501_1_alg».proof.Proof.HostReads

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Row set b of the projection call's output array at (n, j): the perceptron of the b-th gathered row set. -/
theorem proj_out (c : Dev nD) (n : Fin 1024) (j : Fin 128) :
    (W2 (F := Ideal) m ρ c (Proc.devRef .tc main_v56) : S2x1024x128.Idx → EReal) (ix3 (0 : Fin 2) n j)
        = Cert.Sim.proj (fun n k => rows1 m c (ix2 n k)) (m ((c.tc : Thread nD τ).loc main_arg3)) (m ((c.tc : Thread nD τ).loc main_arg4))
            (m ((c.tc : Thread nD τ).loc main_arg5)) (m ((c.tc : Thread nD τ).loc main_arg6)) n j
    ∧ (W2 (F := Ideal) m ρ c (Proc.devRef .tc main_v56) : S2x1024x128.Idx → EReal) (ix3 (1 : Fin 2) n j)
        = Cert.Sim.proj (fun n k => rows2 m c (ix2 n k)) (m ((c.tc : Thread nD τ).loc main_arg3)) (m ((c.tc : Thread nD τ).loc main_arg4))
            (m ((c.tc : Thread nD τ).loc main_arg5)) (m ((c.tc : Thread nD τ).loc main_arg6)) n j := by
  have hW : W2 (F := Ideal) m ρ c (Proc.devRef .tc main_v56)
      = Proj.projArr (V1 m ρ c main_v55) (V1 m ρ c main_arg3) (V1 m ρ c main_arg4) (V1 m ρ c main_arg5) (V1 m ρ c main_arg6) :=
    (W2_arr m ρ c 5).trans (Proj.arr_eq (V1 m ρ) c)
  have h3 : V1 m ρ c main_arg3 = m ((c.tc : Thread nD τ).loc main_arg3) := W1_main_arg3 m ρ c
  have h4 : V1 m ρ c main_arg4 = m ((c.tc : Thread nD τ).loc main_arg4) := W1_main_arg4 m ρ c
  have h5 : V1 m ρ c main_arg5 = m ((c.tc : Thread nD τ).loc main_arg5) := W1_main_arg5 m ρ c
  have h6 : V1 m ρ c main_arg6 = m ((c.tc : Thread nD τ).loc main_arg6) := W1_main_arg6 m ρ c
  rw [hW, h3, h4, h5, h6]
  constructor
  · show Cert.Sim.proj _ _ _ _ _ _ _ = _
    refine congrArg (fun X => Cert.Sim.proj X _ _ _ _ n j) (funext fun n' => funext fun k => ?_)
    exact (V1_rows m ρ c 0 n' k).trans (if_pos rfl)
  · show Cert.Sim.proj _ _ _ _ _ _ _ = _
    refine congrArg (fun X => Cert.Sim.proj X _ _ _ _ n j) (funext fun n' => funext fun k => ?_)
    exact (V1_rows m ρ c 1 n' k).trans (if_neg (by decide))

/-- The result array at the end of @main, at (p, q). -/
theorem result_apply (c : Dev nD) (p q : Fin 1024) :
    (W4 (F := Ideal) m ρ c (Proc.devRef .tc main_v62) : S1024x1024.Idx → EReal) (ix2 p q)
      = Cert.Sim.out (fun n k => rows1 m c (ix2 n k)) (fun n k => rows2 m c (ix2 n k))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) p q := by
  have hW : W4 (F := Ideal) m ρ c (Proc.devRef .tc main_v62)
      = Pair.simArr (V3 m ρ c main_v58) (V3 m ρ c main_v60) (V3 m ρ c main_arg7) (V3 m ρ c main_arg8) (V3 m ρ c main_v61) (V3 m ρ c main_arg10) :=
    (result_eq m ρ c).trans (Pair.arr_eq (V3 m ρ) c)
  have h7 : V3 m ρ c main_arg7 = m ((c.tc : Thread nD τ).loc main_arg7) := W3_main_arg7 m ρ c
  have h8 : V3 m ρ c main_arg8 = m ((c.tc : Thread nD τ).loc main_arg8) := W3_main_arg8 m ρ c
  have h10 : V3 m ρ c main_arg10 = m ((c.tc : Thread nD τ).loc main_arg10) := W3_main_arg10 m ρ c
  rw [hW, h7, h8, h10]
  show Cert.Sim.sim _ _ _ _ _ _ _ _ = _
  unfold Cert.Sim.out
  have e1 : (fun (r : Fin 1024) (d : Fin 128) => (V3 (F := Ideal) m ρ c main_v58 : S1024x128.Idx → EReal) (ix2 r d))
      = Cert.Sim.proj (fun n k => rows1 m c (ix2 n k)) (m ((c.tc : Thread nD τ).loc main_arg3)) (m ((c.tc : Thread nD τ).loc main_arg4))
            (m ((c.tc : Thread nD τ).loc main_arg5)) (m ((c.tc : Thread nD τ).loc main_arg6)) :=
    funext fun r => funext fun d => (V3_f1 m ρ c r d).trans (proj_out m ρ c r d).1
  have e2 : (fun (r : Fin 1024) (d : Fin 128) => (V3 (F := Ideal) m ρ c main_v60 : S1024x128.Idx → EReal) (ix2 r d))
      = Cert.Sim.proj (fun n k => rows2 m c (ix2 n k)) (m ((c.tc : Thread nD τ).loc main_arg3)) (m ((c.tc : Thread nD τ).loc main_arg4))
            (m ((c.tc : Thread nD τ).loc main_arg5)) (m ((c.tc : Thread nD τ).loc main_arg6)) :=
    funext fun r => funext fun d => (V3_f2 m ρ c r d).trans (proj_out m ρ c r d).2
  have e4 : (fun (k : Fin 32) => (V3 (F := Ideal) m ρ c main_v61 : S32.Idx → EReal) (ix1 k))
      = fun k => (m ((c.tc : Thread nD τ).loc main_arg9) : S32x1.Idx → EReal) (ix2 k (0 : Fin 1)) :=
    funext fun k => V3_w4 m ρ c k
  rw [e1, e2, e4]

end Cert.KernelIdeal.Whole

end
-- ==== Proof.RefValue.lean ====
/-
  The reference's result on the extended reals, entry by entry: the same function `Sim.out` of its two gathered row
  sets and the nine parameter arrays.
-/
import proofs.«177041_j7370163880501_1_alg».proof.Proof.Gen.ReferenceIdeal.Read
import proofs.«177041_j7370163880501_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Idealize.SL Idealize.SL.Sem

/-- The hidden layer of the first row set, entry (n, k): the positive part of the 256-term product sum plus the bias. -/
theorem hidden1_apply (x0 : (⟨S2x256x360x360, .f32⟩ : BufTy).Contents (Elt Ideal)) (x1 : (⟨S3x1024, .i32⟩ : BufTy).Contents (Elt Ideal))
    (x3 : (⟨S256x256, .f32⟩ : BufTy).Contents (Elt Ideal)) (x4 : (⟨S256, .f32⟩ : BufTy).Contents (Elt Ideal))
    (n : Fin 1024) (k : Fin 256) :
    val_main_v31 (F := Ideal) x0 x1 x3 x4 (ix2 n k)
      = max ((∑ c : Fin 256, val_main_v26 (F := Ideal) x0 x1 (ix2 n c) * x3 (ix2 c k)) + x4 (ix1 k)) Cert.Sim.z := by
  rw [val_main_v31_apply, val_main_v30_apply, val_main_v27_apply, val_main_v29_apply, val_main_v28_apply,
    val_main_call0_v0_apply, val_main_call0_cst_apply]
  have eb : idx_main_v28 (idx_main_v29 (ix2 n k)) = ix1 k := funext fun a => by match a with | ⟨0, _⟩ => rfl
  have el : ∀ c : Fin 256, lidx_main_v27 (ix2 n k) c = ix2 n c :=
    fun c => funext fun a => by match a with | ⟨0, _⟩ => rfl | ⟨1, _⟩ => rfl
  have er : ∀ c : Fin 256, ridx_main_v27 (ix2 n k) c = ix2 c k :=
    fun c => funext fun a => by match a with | ⟨0, _⟩ => rfl | ⟨1, _⟩ => rfl
  simp only [eb, el, er, Ideal.addf_def, Ideal.maximumf_def, Ideal.ofBits_def]

/-- The first row set through the two layers, entry (n, j). -/
theorem proj1_apply (x0 : (⟨S2x256x360x360, .f32⟩ : BufTy).Contents (Elt Ideal)) (x1 : (⟨S3x1024, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (n : Fin 1024) (j : Fin 128) :
    val_main_v36 (F := Ideal) x0 x1 x3 x4 x5 x6 (ix2 n j)
      = Cert.Sim.proj (fun n k => val_main_v26 (F := Ideal) x0 x1 (ix2 n k)) x3 x4 x5 x6 n j := by
  rw [val_main_v36_apply, val_main_v35_apply, val_main_v32_apply, val_main_v34_apply, val_main_v33_apply,
    val_main_call1_v0_apply, val_main_call1_cst_apply]
  have eb : idx_main_v33 (idx_main_v34 (ix2 n j)) = ix1 j := funext fun a => by match a with | ⟨0, _⟩ => rfl
  have el : ∀ k : Fin 256, lidx_main_v32 (ix2 n j) k = ix2 n k :=
    fun k => funext fun a => by match a with | ⟨0, _⟩ => rfl | ⟨1, _⟩ => rfl
  have er : ∀ k : Fin 256, ridx_main_v32 (ix2 n j) k = ix2 k j :=
    fun k => funext fun a => by match a with | ⟨0, _⟩ => rfl | ⟨1, _⟩ => rfl
  simp only [eb, el, er, hidden1_apply, Ideal.addf_def, Ideal.maximumf_def, Ideal.ofBits_def, Cert.Sim.proj]

/-- The hidden layer of the second row set, entry (n, k): the positive part of the 256-term product sum plus the bias. -/
theorem hidden2_apply (x0 : (⟨S2x256x360x360, .f32⟩ : BufTy).Contents (Elt Ideal)) (x2 : (⟨S3x1024, .i32⟩ : BufTy).Contents (Elt Ideal))
    (x3 : (⟨S256x256, .f32⟩ : BufTy).Contents (Elt Ideal)) (x4 : (⟨S256, .f32⟩ : BufTy).Contents (Elt Ideal))
    (n : Fin 1024) (k : Fin 256) :
    val_main_v67 (F := Ideal) x0 x2 x3 x4 (ix2 n k)
      = max ((∑ c : Fin 256, val_main_v62 (F := Ideal) x0 x2 (ix2 n c) * x3 (ix2 c k)) + x4 (ix1 k)) Cert.Sim.z := by
  rw [val_main_v67_apply, val_main_v66_apply, val_main_v63_apply, val_main_v65_apply, val_main_v64_apply,
    val_main_call2_v0_apply, val_main_call2_cst_apply]
  have eb : idx_main_v64 (idx_main_v65 (ix2 n k)) = ix1 k := funext fun a => by match a with | ⟨0, _⟩ => rfl
  have el : ∀ c : Fin 256, lidx_main_v63 (ix2 n k) c = ix2 n c :=
    fun c => funext fun a => by match a with | ⟨0, _⟩ => rfl | ⟨1, _⟩ => rfl
  have er : ∀ c : Fin 256, ridx_main_v63 (ix2 n k) c = ix2 c k :=
    fun c => funext fun a => by match a with | ⟨0, _⟩ => rfl | ⟨1, _⟩ => rfl
  simp only [eb, el, er, Ideal.addf_def, Ideal.maximumf_def, Ideal.ofBits_def]

/-- The second row set through the two layers, entry (n, j). -/
theorem proj2_apply (x0 : (⟨S2x256x360x360, .f32⟩ : BufTy).Contents (Elt Ideal)) (x2 : (⟨S3x1024, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (n : Fin 1024) (j : Fin 128) :
    val_main_v72 (F := Ideal) x0 x2 x3 x4 x5 x6 (ix2 n j)
      = Cert.Sim.proj (fun n k => val_main_v62 (F := Ideal) x0 x2 (ix2 n k)) x3 x4 x5 x6 n j := by
  rw [val_main_v72_apply, val_main_v71_apply, val_main_v68_apply, val_main_v70_apply, val_main_v69_apply,
    val_main_call3_v0_apply, val_main_call3_cst_apply]
  have eb : idx_main_v69 (idx_main_v70 (ix2 n j)) = ix1 j := funext fun a => by match a with | ⟨0, _⟩ => rfl
  have el : ∀ k : Fin 256, lidx_main_v68 (ix2 n j) k = ix2 n k :=
    fun k => funext fun a => by match a with | ⟨0, _⟩ => rfl | ⟨1, _⟩ => rfl
  have er : ∀ k : Fin 256, ridx_main_v68 (ix2 n j) k = ix2 k j :=
    fun k => funext fun a => by match a with | ⟨0, _⟩ => rfl | ⟨1, _⟩ => rfl
  simp only [eb, el, er, hidden2_apply, Ideal.addf_def, Ideal.maximumf_def, Ideal.ofBits_def, Cert.Sim.proj]

/-- The pair stage over the two projected sets: the result at (p, q) from rows p and q. -/
theorem pair_apply (x0 : (⟨S2x256x360x360, .f32⟩ : BufTy).Contents (Elt Ideal)) (x1 x2 : (⟨S3x1024, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (x7 : (⟨S128x32, .f32⟩ : BufTy).Contents (Elt Ideal)) (x8 : (⟨S32, .f32⟩ : BufTy).Contents (Elt Ideal))
    (x9 : (⟨S32x1, .f32⟩ : BufTy).Contents (Elt Ideal)) (x10 : (⟨S1, .f32⟩ : BufTy).Contents (Elt Ideal))
    (p q : Fin 1024) :
    val_main_v87 (F := Ideal) x0 x1 x2 x3 x4 x5 x6 x7 x8 x9 x10 (ix2 p q)
      = Cert.Sim.out (fun n k => val_main_v26 (F := Ideal) x0 x1 (ix2 n k)) (fun n k => val_main_v62 (F := Ideal) x0 x2 (ix2 n k))
          x3 x4 x5 x6 x7 x8 x9 x10 p q := by
  rw [val_main_v87_apply, val_main_v86_apply, val_main_v83_apply, val_main_v85_apply, val_main_v84_apply]
  have e87 : idx_main_v87 (ix2 p q) = ix3 p q (0 : Fin 1) := funext fun a => Fin.ext (by
    have hp : p.val < 1024 := p.isLt
    have hq : q.val < 1024 := q.isLt
    match a with
    | ⟨0, _⟩ => show (p.val * 1024 + q.val) / 1024 = p.val; omega
    | ⟨1, _⟩ => show (p.val * 1024 + q.val) / 1 % 1024 = q.val; omega
    | ⟨2, _⟩ => rfl)
  rw [e87]
  have eb4 : idx_main_v84 (idx_main_v85 (ix3 p q (0 : Fin 1))) = ix1 (0 : Fin 1) := funext fun a => by match a with | ⟨0, _⟩ => rfl
  have el83 : ∀ k : Fin 32, lidx_main_v83 (ix3 p q (0 : Fin 1)) k = ix3 p q k :=
    fun k => funext fun a => by match a with | ⟨0, _⟩ => rfl | ⟨1, _⟩ => rfl | ⟨2, _⟩ => rfl
  have er83 : ∀ k : Fin 32, ridx_main_v83 (ix3 p q (0 : Fin 1)) k = ix2 k (0 : Fin 1) :=
    fun k => funext fun a => by match a with | ⟨0, _⟩ => rfl | ⟨1, _⟩ => rfl
  have h82 : ∀ k : Fin 32, val_main_v82 (F := Ideal) x0 x1 x2 x3 x4 x5 x6 x7 x8 (ix3 p q k)
      = max ((∑ d : Fin 128, (val_main_v36 (F := Ideal) x0 x1 x3 x4 x5 x6 (ix2 p d) - val_main_v72 (F := Ideal) x0 x2 x3 x4 x5 x6 (ix2 q d)) * x7 (ix2 d k))
          + x8 (ix1 k)) Cert.Sim.z := by
    intro k
    rw [val_main_v82_apply, val_main_v81_apply, val_main_v78_apply, val_main_v80_apply, val_main_v79_apply,
      val_main_call4_v0_apply, val_main_call4_cst_apply]
    have eb3 : idx_main_v79 (idx_main_v80 (ix3 p q k)) = ix1 k := funext fun a => by match a with | ⟨0, _⟩ => rfl
    have el78 : ∀ d : Fin 128, lidx_main_v78 (ix3 p q k) d = ix3 p q d :=
      fun d => funext fun a => by match a with | ⟨0, _⟩ => rfl | ⟨1, _⟩ => rfl | ⟨2, _⟩ => rfl
    have er78 : ∀ d : Fin 128, ridx_main_v78 (ix3 p q k) d = ix2 d k :=
      fun d => funext fun a => by match a with | ⟨0, _⟩ => rfl | ⟨1, _⟩ => rfl
    have h77 : ∀ d : Fin 128, val_main_v77 (F := Ideal) x0 x1 x2 x3 x4 x5 x6 (ix3 p q d)
        = val_main_v36 (F := Ideal) x0 x1 x3 x4 x5 x6 (ix2 p d) - val_main_v72 (F := Ideal) x0 x2 x3 x4 x5 x6 (ix2 q d) := by
      intro d
      rw [val_main_v77_apply, val_main_v75_apply, val_main_v73_apply, val_main_v76_apply, val_main_v74_apply]
      have e1 : idx_main_v73 (idx_main_v75 (ix3 p q d)) = ix2 p d :=
        funext fun a => by match a with | ⟨0, _⟩ => rfl | ⟨1, _⟩ => rfl
      have e2 : idx_main_v74 (idx_main_v76 (ix3 p q d)) = ix2 q d :=
        funext fun a => by match a with | ⟨0, _⟩ => rfl | ⟨1, _⟩ => rfl
      rw [e1, e2, Ideal.subf_def]
    simp only [eb3, el78, er78, h77, Ideal.addf_def, Ideal.maximumf_def, Ideal.ofBits_def]
  simp only [eb4, el83, er83, h82, proj1_apply, proj2_apply, Ideal.addf_def, Cert.Sim.out, Cert.Sim.sim]

/-- The reference run's result term at (p, q). -/
theorem result_apply (m : (ℓ : Loc nD τ sig) → Buf (Elt Ideal) ℓ) (c : Dev nD) (p q : Fin 1024) :
    (Cert.ReferenceIdeal.Value.res_out0 (F := Ideal) m c : S1024x1024.Idx → EReal) (ix2 p q)
      = Cert.Sim.out
          (fun n k => val_main_v26 (F := Ideal) (m ((c.tc : Thread nD τ).loc main_arg0)) (m ((c.tc : Thread nD τ).loc main_arg1)) (ix2 n k))
          (fun n k => val_main_v62 (F := Ideal) (m ((c.tc : Thread nD τ).loc main_arg0)) (m ((c.tc : Thread nD τ).loc main_arg2)) (ix2 n k))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) p q := by
  show Cert.ReferenceIdeal.Value.res_main_v87 (F := Ideal) m c (ix2 p q) = _
  rw [val_main_v87_eq]
  exact pair_apply _ _ _ _ _ _ _ _ _ _ _ p q

end Cert.ReferenceIdeal.RefValue

end
-- ==== Proof.lean ====
/-
  The certificate of the pairwise-similarity kernel against its jnp reference, over the extended reals.

  Both programs gather two sets of 1024 feature rows (256 channels) out of the transposed feature array by the same
  host operations, take each set through the perceptron relu(relu(X·W₁ + b₁)·W₂ + b₂), and for every pair (m, n) of
  rows compute Σₖ relu(Σ_d (f₁[m,d] − f₂[n,d])·W₃[d,k] + b₃[k])·w₄[k] + b₄. The kernel does the perceptron in one
  call over the two stacked row sets and the pairwise stage tile by tile in a second call, with matrix products into
  zero accumulators and a lane sum where the reference has contractions; on the extended reals every one of those is
  the same finite sum, term for term, so no law beyond reading each operation at an index joins the two sides, and
  the precondition (finite inputs) is never opened.

  Frames: each kernel call stores one whole block per grid point, computed from whole input blocks; @main is two
  host stretches and the two calls, run segment by segment; no operation writes an argument. The word-level program
  is the same text, so its frame is the same proof read at the word-level instance. The reference is host operations
  only, and its frame is its run with the result dropped.
  The idealization changed no operation, so there is nothing to preserve.
-/
import proofs.«177041_j7370163880501_1_alg».proof.Defs
import proofs.«177041_j7370163880501_1_alg».proof.Proof.Gen.Kernel
import proofs.«177041_j7370163880501_1_alg».proof.Proof.Gen.KernelIdeal
import proofs.«177041_j7370163880501_1_alg».proof.Proof.Gen.ReferenceIdeal
import proofs.«177041_j7370163880501_1_alg».proof.Proof.Gen.Pre_finite_inputs
import proofs.«177041_j7370163880501_1_alg».proof.Proof.Gen.ReferenceIdeal.Run
import proofs.«177041_j7370163880501_1_alg».proof.Proof.BitsMainRun
import proofs.«177041_j7370163880501_1_alg».proof.Proof.MainRun
import proofs.«177041_j7370163880501_1_alg».proof.Proof.KernelValue
import proofs.«177041_j7370163880501_1_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Whole.frame (F := Bits) m ρ

theorem frame_ki : Cert.frame_KernelIdeal := fun m ρ _ => Cert.KernelIdeal.Whole.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result at `Sim.out` of the same gathered row sets and parameter arrays. -/
theorem algebraic : Cert.algebraic_KernelIdeal_ReferenceIdeal := by
  intro m ρ m' ρ' _ hagree
  refine ⟨fun c => Cert.KernelIdeal.Whole.W4 (F := Ideal) m ρ c (Proc.devRef .tc Cert.KernelIdeal.main_v62), ?_, ?_⟩
  · exact (θ_run Cert.KernelIdeal.defs _ _).mono (fun r h c =>
      ⟨h c _ (Cert.KernelIdeal.Whole.mem_uc Cert.KernelIdeal.main_v62 (by decide)),
       (h c _ (Cert.KernelIdeal.Whole.mem_uc Cert.KernelIdeal.main_arg0 (by decide))).trans (Cert.KernelIdeal.Whole.W4_main_arg0 m ρ c),
       (h c _ (Cert.KernelIdeal.Whole.mem_uc Cert.KernelIdeal.main_arg1 (by decide))).trans (Cert.KernelIdeal.Whole.W4_main_arg1 m ρ c),
       (h c _ (Cert.KernelIdeal.Whole.mem_uc Cert.KernelIdeal.main_arg2 (by decide))).trans (Cert.KernelIdeal.Whole.W4_main_arg2 m ρ c),
       (h c _ (Cert.KernelIdeal.Whole.mem_uc Cert.KernelIdeal.main_arg3 (by decide))).trans (Cert.KernelIdeal.Whole.W4_main_arg3 m ρ c),
       (h c _ (Cert.KernelIdeal.Whole.mem_uc Cert.KernelIdeal.main_arg4 (by decide))).trans (Cert.KernelIdeal.Whole.W4_main_arg4 m ρ c),
       (h c _ (Cert.KernelIdeal.Whole.mem_uc Cert.KernelIdeal.main_arg5 (by decide))).trans (Cert.KernelIdeal.Whole.W4_main_arg5 m ρ c),
       (h c _ (Cert.KernelIdeal.Whole.mem_uc Cert.KernelIdeal.main_arg6 (by decide))).trans (Cert.KernelIdeal.Whole.W4_main_arg6 m ρ c),
       (h c _ (Cert.KernelIdeal.Whole.mem_uc Cert.KernelIdeal.main_arg7 (by decide))).trans (Cert.KernelIdeal.Whole.W4_main_arg7 m ρ c),
       (h c _ (Cert.KernelIdeal.Whole.mem_uc Cert.KernelIdeal.main_arg8 (by decide))).trans (Cert.KernelIdeal.Whole.W4_main_arg8 m ρ c),
       (h c _ (Cert.KernelIdeal.Whole.mem_uc Cert.KernelIdeal.main_arg9 (by decide))).trans (Cert.KernelIdeal.Whole.W4_main_arg9 m ρ c),
       (h c _ (Cert.KernelIdeal.Whole.mem_uc Cert.KernelIdeal.main_arg10 (by decide))).trans (Cert.KernelIdeal.Whole.W4_main_arg10 m ρ c)⟩)
      (Cert.KernelIdeal.Whole.run_all (F := Ideal) m ρ)
  · refine (θ_run Cert.ReferenceIdeal.defs _ _).mono (fun _ h c => ⟨(h c).1.trans ?_, (h c).2⟩)
      (Cert.ReferenceIdeal.Value.run (F := Ideal) m' ρ')
    funext i
    obtain ⟨p, q, rfl⟩ : ∃ (p q : Fin 1024), i = ix2 p q := ⟨i 0, i 1, eq_ix2 i⟩
    refine (Cert.ReferenceIdeal.RefValue.result_apply m' c p q).trans ?_
    refine Eq.trans ?_ (Cert.KernelIdeal.Whole.result_apply m ρ c p q).symm
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]

end Cert.Proof

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
